-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v29)) (v1 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_v36) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_v40) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x512 : Shape := ⟨2, ![65536, 512]⟩
abbrev S32768 : Shape := ⟨1, ![32768]⟩
abbrev S512x512 : Shape := ⟨2, ![512, 512]⟩
abbrev S512x1024 : Shape := ⟨2, ![512, 1024]⟩
abbrev S512 : Shape := ⟨1, ![512]⟩
abbrev S_ : Shape := ⟨0, ![]⟩

class Facts : Prop where
  bcast_S_S65536x512 : S_.BroadcastsInDim S65536x512 (![] : Fin 0 → Fin S65536x512.rank)
  reducesTo_S65536x512_S_d0_1 : S65536x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512x1024 : S_.BroadcastsInDim S512x1024 (![] : Fin 0 → Fin S512x1024.rank)
  reducesTo_S512x1024_S_d0_1 : S512x1024.ReducesTo [0, 1] S_
  bcast_S_S512 : S_.BroadcastsInDim S512 (![] : Fin 0 → Fin S512.rank)
  reducesTo_S512_S_d0 : S512.ReducesTo [0] S_

variable [Facts]

def fn_part2 {F : FTy → Type} [FloatOps F] (main_arg9 : FVec F S512 .f32) (main_v33 : IVec S_ 1) : IVec S_ 1 :=
  let main_v34 : FVec F S512 .f32 := Host.absf main_arg9
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  main_v38

def fn_part1 {F : FTy → Type} [FloatOps F] (main_arg6 : FVec F S512x512 .f32) (main_arg7 : FVec F S512x1024 .f32) (main_arg8 : FVec F S512 .f32) (main_arg9 : FVec F S512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512x512 .f32 := Host.absf main_arg6
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512x1024 .f32 := Host.absf main_arg7
  let main_cst_8 : FVec F S_ .f32 := constant S_ .f32 0x7F800000#32
  let main_v25 : FVec F S512x1024 .f32 := broadcastInDim S512x1024 ![] bcast_S_S512x1024 main_cst_8
  let main_v26 : IVec S512x1024 1 := cmpf .olt main_v24 main_v25
  let main_c_9 : IVec S_ 1 := constantI S_ 1 1#1
  let main_v27 : IVec S_ 1 := (fun x v => Host.reduce IntOp.andi x v reducesTo_S512x1024_S_d0_1 h_S_) main_v26 main_c_9
  let main_v28 : IVec S_ 1 := andi main_v23 main_v27
  let main_v29 : FVec F S512 .f32 := Host.absf main_arg8
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg9 main_v33

def fn {F : FTy → Type} [FloatOps F] (main_arg0 : FVec F S65536x512 .f32) (main_arg1 : FVec F S65536x512 .f32) (main_arg2 : IVec S32768 32) (main_arg3 : IVec S32768 32) (main_arg4 : FVec F S65536x512 .f32) (main_arg5 : FVec F S512x512 .f32) (main_arg6 : FVec F S512x512 .f32) (main_arg7 : FVec F S512x1024 .f32) (main_arg8 : FVec F S512 .f32) (main_arg9 : FVec F S512 .f32) : IVec S_ 1 :=
  let main_v0 : FVec F S65536x512 .f32 := Host.absf main_arg0
  let main_cst : FVec F S_ .f32 := constant S_ .f32 0x7F800000#32
  let main_v1 : FVec F S65536x512 .f32 := broadcastInDim S65536x512 ![] bcast_S_S65536x512 main_cst
  let main_v2 : IVec S65536x512 1 := cmpf .olt main_v0 main_v1
  let main_c : IVec S_ 1 := constantI S_ 1 1#1
  let main_v3 : IVec S_ 1 := (fun x v => Host.reduce IntOp.andi x v reducesTo_S65536x512_S_d0_1 h_S_) main_v2 main_c
  let main_v4 : FVec F S65536x512 .f32 := Host.absf main_arg1
  let main_cst_0 : FVec F S_ .f32 := constant S_ .f32 0x7F800000#32
  let main_v5 : FVec F S65536x512 .f32 := broadcastInDim S65536x512 ![] bcast_S_S65536x512 main_cst_0
  let main_v6 : IVec S65536x512 1 := cmpf .olt main_v4 main_v5
  let main_c_1 : IVec S_ 1 := constantI S_ 1 1#1
  let main_v7 : IVec S_ 1 := (fun x v => Host.reduce IntOp.andi x v reducesTo_S65536x512_S_d0_1 h_S_) main_v6 main_c_1
  let main_v8 : IVec S_ 1 := andi main_v3 main_v7
  let main_v9 : FVec F S65536x512 .f32 := Host.absf main_arg4
  let main_cst_2 : FVec F S_ .f32 := constant S_ .f32 0x7F800000#32
  let main_v10 : FVec F S65536x512 .f32 := broadcastInDim S65536x512 ![] bcast_S_S65536x512 main_cst_2
  let main_v11 : IVec S65536x512 1 := cmpf .olt main_v9 main_v10
  let main_c_3 : IVec S_ 1 := constantI S_ 1 1#1
  let main_v12 : IVec S_ 1 := (fun x v => Host.reduce IntOp.andi x v reducesTo_S65536x512_S_d0_1 h_S_) main_v11 main_c_3
  let main_v13 : IVec S_ 1 := andi main_v8 main_v12
  let main_v14 : FVec F S512x512 .f32 := Host.absf main_arg5
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg6 main_arg7 main_arg8 main_arg9 main_v13 main_v16
-- ==== Kernel.lean ====
abbrev S65536x512 : Shape := ⟨2, ![65536, 512]⟩
abbrev S32768 : Shape := ⟨1, ![32768]⟩
abbrev S512x512 : Shape := ⟨2, ![512, 512]⟩
abbrev S512x1024 : Shape := ⟨2, ![512, 1024]⟩
abbrev S512 : Shape := ⟨1, ![512]⟩
abbrev S2048x512 : Shape := ⟨2, ![2048, 512]⟩
abbrev S_ : Shape := ⟨0, ![]⟩
abbrev S32768x1 : Shape := ⟨2, ![32768, 1]⟩
abbrev S32768x512 : Shape := ⟨2, ![32768, 512]⟩
abbrev S1x512 : Shape := ⟨2, ![1, 512]⟩
abbrev S1024x512 : Shape := ⟨2, ![1024, 512]⟩

abbrev nBuf : Space → Nat
  | .hbm => 55
  | .vmem => 20
  | .smem => 0
  | _ => 0

abbrev bufTy : (tb : Table) → Fin (tcTables nBuf tb) → BufTy
  | .hbm, ⟨0, _⟩ => ⟨S65536x512, .f32⟩
  | .hbm, ⟨1, _⟩ => ⟨S65536x512, .f32⟩
  | .hbm, ⟨2, _⟩ => ⟨S32768, .i32⟩
  | .hbm, ⟨3, _⟩ => ⟨S32768, .i32⟩
  | .hbm, ⟨4, _⟩ => ⟨S65536x512, .f32⟩
  | .hbm, ⟨5, _⟩ => ⟨S512x512, .f32⟩
  | .hbm, ⟨6, _⟩ => ⟨S512x512, .f32⟩
  | .hbm, ⟨7, _⟩ => ⟨S512x1024, .f32⟩
  | .hbm, ⟨8, _⟩ => ⟨S512, .f32⟩
  | .hbm, ⟨9, _⟩ => ⟨S512, .f32⟩
  | .hbm, ⟨10, _⟩ => ⟨S65536x512, .f32⟩
  | .hbm, ⟨11, _⟩ => ⟨S65536x512, .f32⟩
  | .hbm, ⟨12, _⟩ => ⟨S_, .i32⟩
  | .hbm, ⟨13, _⟩ => ⟨S32768, .i32⟩
  | .hbm, ⟨14, _⟩ => ⟨S32768, .i1⟩
  | .hbm, ⟨15, _⟩ => ⟨S_, .i32⟩
  | .hbm, ⟨16, _⟩ => ⟨S32768, .i32⟩
  | .hbm, ⟨17, _⟩ => ⟨S32768, .i32⟩
  | .hbm, ⟨18, _⟩ => ⟨S32768, .i32⟩
  | .hbm, ⟨19, _⟩ => ⟨S32768x1, .i32⟩
  | .hbm, ⟨20, _⟩ => ⟨S32768x512, .f32⟩
  | .hbm, ⟨21, _⟩ => ⟨S_, .i32⟩
  | .hbm, ⟨22, _⟩ => ⟨S32768, .i32⟩
  | .hbm, ⟨23, _⟩ => ⟨S32768, .i1⟩
  | .hbm, ⟨24, _⟩ => ⟨S_, .i32⟩
  | .hbm, ⟨25, _⟩ => ⟨S32768, .i32⟩
  | .hbm, ⟨26, _⟩ => ⟨S32768, .i32⟩
  | .hbm, ⟨27, _⟩ => ⟨S32768, .i32⟩
  | .hbm, ⟨28, _⟩ => ⟨S32768x1, .i32⟩
  | .hbm, ⟨29, _⟩ => ⟨S32768x512, .f32⟩
  | .hbm, ⟨30, _⟩ => ⟨S512x512, .f32⟩
  | .hbm, ⟨31, _⟩ => ⟨S512x512, .f32⟩
  | .hbm, ⟨32, _⟩ => ⟨S512x512, .f32⟩
  | .hbm, ⟨33, _⟩ => ⟨S512x512, .f32⟩
  | .hbm, ⟨34, _⟩ => ⟨S1x512, .f32⟩
  | .hbm, ⟨35, _⟩ => ⟨S1x512, .f32⟩
  | .hbm, ⟨36, _⟩ => ⟨S32768x512, .f32⟩
  | .hbm, ⟨37, _⟩ => ⟨S_, .i32⟩
  | .hbm, ⟨38, _⟩ => ⟨S32768, .i32⟩
  | .hbm, ⟨39, _⟩ => ⟨S32768, .i1⟩
  | .hbm, ⟨40, _⟩ => ⟨S_, .i32⟩
  | .hbm, ⟨41, _⟩ => ⟨S32768, .i32⟩
  | .hbm, ⟨42, _⟩ => ⟨S32768, .i32⟩
  | .hbm, ⟨43, _⟩ => ⟨S32768, .i32⟩
  | .hbm, ⟨44, _⟩ => ⟨S32768x1, .i32⟩
  | .hbm, ⟨45, _⟩ => ⟨S65536x512, .f32⟩
  | .hbm, ⟨46, _⟩ => ⟨S_, .i32⟩
  | .hbm, ⟨47, _⟩ => ⟨S32768, .i32⟩
  | .hbm, ⟨48, _⟩ => ⟨S32768, .i1⟩
  | .hbm, ⟨49, _⟩ => ⟨S_, .i32⟩
  | .hbm, ⟨50, _⟩ => ⟨S32768, .i32⟩
  | .hbm, ⟨51, _⟩ => ⟨S32768, .i32⟩
  | .hbm, ⟨52, _⟩ => ⟨S32768, .i32⟩
  | .hbm, ⟨53, _⟩ => ⟨S32768x1, .i32⟩
  | .hbm, ⟨54, _⟩ => ⟨S65536x512, .f32⟩
  | .local _ .vmem, ⟨0, _⟩ => ⟨S2048x512, .f32⟩
  | .local _ .vmem, ⟨1, _⟩ => ⟨S2048x512, .f32⟩
  | .local _ .vmem, ⟨2, _⟩ => ⟨S512x512, .f32⟩
  | .local _ .vmem, ⟨3, _⟩ => ⟨S2048x512, .f32⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | .local _ .vmem, ⟨7, _⟩ => ⟨S512x512, .f32⟩
  | .local _ .vmem, ⟨8, _⟩ => ⟨S2048x512, .f32⟩
  | .local _ .vmem, ⟨9, _⟩ => ⟨S2048x512, .f32⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1024x512, .f32⟩
  | .local _ .vmem, ⟨14, _⟩ => ⟨S512x512, .f32⟩
  | .local _ .vmem, ⟨15, _⟩ => ⟨S512x512, .f32⟩
  | .local _ .vmem, ⟨16, _⟩ => ⟨S1x512, .f32⟩
  | .local _ .vmem, ⟨17, _⟩ => ⟨S1x512, .f32⟩
  | .local _ .vmem, ⟨18, _⟩ => ⟨S1024x512, .f32⟩
  | .local _ .vmem, ⟨19, _⟩ => ⟨S1024x512, .f32⟩
  | _, _ => ⟨S65536x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_v2 : Ref sig .tc := ⟨.hbm, 13, rfl⟩
abbrev main_v3 : Ref sig .tc := ⟨.hbm, 14, rfl⟩
abbrev main_c_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_c_1 : Ref sig .tc := ⟨.hbm, 21, rfl⟩
abbrev main_v9 : Ref sig .tc := ⟨.hbm, 22, rfl⟩
abbrev main_v10 : Ref sig .tc := ⟨.hbm, 23, rfl⟩
abbrev main_c_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_3 : Ref sig .tc := ⟨.hbm, 37, rfl⟩
abbrev main_v23 : Ref sig .tc := ⟨.hbm, 38, rfl⟩
abbrev main_v24 : Ref sig .tc := ⟨.hbm, 39, rfl⟩
abbrev main_c_4 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_5 : Ref sig .tc := ⟨.hbm, 46, rfl⟩
abbrev main_v30 : Ref sig .tc := ⟨.hbm, 47, rfl⟩
abbrev main_v31 : Ref sig .tc := ⟨.hbm, 48, rfl⟩
abbrev main_c_6 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg5_0 : Ref sig .tc := ⟨.vmem, 17, rfl⟩
abbrev cc2_stg6_0 : Ref sig .tc := ⟨.vmem, 18, rfl⟩
abbrev cc2_stg6_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem3_0 : DmaSem sig := 15
abbrev cc2_sem4_0 : DmaSem sig := 16
abbrev cc2_sem5_0 : DmaSem sig := 17
abbrev cc2_sem6_0 : DmaSem sig := 18
abbrev cc2_sem6_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2048x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1024x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S512x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S512x512 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x512 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x512 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S1024x512 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  inb_S2048x512_S2048x512_0_0 : ∀ a, (![0, 0] : Fin 2 → Nat) a + S2048x512.size a ≤ S2048x512.size a
  h_S2048x512 : 0 < S2048x512.numel
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  bcast_S_S32768 : S_.BroadcastsInDim S32768 (![] : Fin 0 → Fin S32768.rank)
  bcast_S32768_S32768x1_0 : S32768.BroadcastsInDim S32768x1 (![0] : Fin 1 → Fin S32768x1.rank)
  slices_S512x1024_S512x512_0_0 : S512x1024.Slices ![0, 0] S512x512
  transposes_S512x512_S512x512_1_0 : S512x512.Transposes [1, 0] S512x512
  slices_S512x1024_S512x512_0_512 : S512x1024.Slices ![0, 512] S512x512
  shapeCasts_S512_S1x512 : S512.ShapeCasts S1x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  dot_S2048x512_S512x512_S2048x512_1_0_0_1_n_n_wf : DotDims.WF S2048x512 S512x512 S2048x512 [1] [0] [0] [1] [] []
  gather_S65536x512_S32768x1_S32768x512_1_0_n_n_0_1_1512_wf : GatherDims.WF S65536x512 S32768x1 S32768x512 [1] [0] [] [0] [] 1 ![1, 512]
  dot_S1024x512_S512x512_S1024x512_1_0_0_1_n_n_wf : DotDims.WF S1024x512 S512x512 S1024x512 [1] [0] [0] [1] [] []
  scatter_S65536x512_S32768x1_S32768x512_1_0_0_1_wf : ScatterDims.WF S65536x512 S32768x1 S32768x512 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S65536x512.size a
  hwx0_0 : ∀ i : grid0.Coords, EltTy.bits .f32 = 32 ∨ (Rect.block (s := S65536x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x512.size a ≤ S65536x512.size a
  hwx0_2 : ∀ i : grid0.Coords, EltTy.bits .f32 = 32 ∨ (Rect.block (s := S65536x512) S2048x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x512.size a ≤ S65536x512.size a
  hwx1_0 : ∀ i : grid1.Coords, EltTy.bits .f32 = 32 ∨ (Rect.block (s := S65536x512) S2048x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S512x512.size a
  hwx1_1 : ∀ i : grid1.Coords, EltTy.bits .f32 = 32 ∨ (Rect.block (s := S512x512) S512x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x512.size a ≤ S65536x512.size a
  hwx1_2 : ∀ i : grid1.Coords, EltTy.bits .f32 = 32 ∨ (Rect.block (s := S65536x512) S2048x512.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x512.size a ≤ S32768x512.size a
  hwx2_0 : ∀ i : grid2.Coords, EltTy.bits .f32 = 32 ∨ (Rect.block (s := S32768x512) S1024x512.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x512.size a ≤ S32768x512.size a
  hwx2_1 : ∀ i : grid2.Coords, EltTy.bits .f32 = 32 ∨ (Rect.block (s := S32768x512) S1024x512.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S512x512.size a ≤ S512x512.size a
  hwx2_2 : ∀ i : grid2.Coords, EltTy.bits .f32 = 32 ∨ (Rect.block (s := S512x512) S512x512.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S512x512.size a ≤ S512x512.size a
  hwx2_3 : ∀ i : grid2.Coords, EltTy.bits .f32 = 32 ∨ (Rect.block (s := S512x512) S512x512.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x512.size a ≤ S1x512.size a
  hwx2_4 : ∀ i : grid2.Coords, EltTy.bits .f32 = 32 ∨ (Rect.block (s := S1x512) S1x512.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x512.size a ≤ S1x512.size a
  hwx2_5 : ∀ i : grid2.Coords, EltTy.bits .f32 = 32 ∨ (Rect.block (s := S1x512) S1x512.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1024x512.size a ≤ S32768x512.size a
  hwx2_6 : ∀ i : grid2.Coords, EltTy.bits .f32 = 32 ∨ (Rect.block (s := S32768x512) S1024x512.size (cc2_transform_6 i) (hinb2_6 i)).WholeWords (EltTy.packing .f32)

variable [Facts₀]

def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf
def gather_S65536x512_S32768x1_S32768x512_1_0_n_n_0_1_1512 : GatherDims S65536x512 S32768x1 S32768x512 where
  offsetDims := [1]
  collapsedSliceDims := [0]
  operandBatchingDims := []
  startIndicesBatchingDims := []
  startIndexMap := [0]
  indexVectorDim := 1
  sliceSizes := ![1, 512]
  wf := gather_S65536x512_S32768x1_S32768x512_1_0_n_n_0_1_1512_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def scatter_S65536x512_S32768x1_S32768x512_1_0_0_1 : ScatterDims S65536x512 S32768x1 S32768x512 where
  updateWindowDims := [1]
  insertedWindowDims := [0]
  scatterDimsToOperandDims := [0]
  indexVectorDim := 1
  wf := scatter_S65536x512_S32768x1_S32768x512_1_0_0_1_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S2048x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S512x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S2048x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v8) S1024x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S1024x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v17) S512x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v19) S512x512.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v20) S1x512.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v21) S1x512.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v22) S1024x512.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S65536x512 : Shape := ⟨2, ![65536, 512]⟩
abbrev S32768 : Shape := ⟨1, ![32768]⟩
abbrev S512x512 : Shape := ⟨2, ![512, 512]⟩
abbrev S512x1024 : Shape := ⟨2, ![512, 1024]⟩
abbrev S512 : Shape := ⟨1, ![512]⟩
abbrev S_ : Shape := ⟨0, ![]⟩
abbrev S32768x1 : Shape := ⟨2, ![32768, 1]⟩
abbrev S32768x512 : Shape := ⟨2, ![32768, 512]⟩
abbrev S32768x1024 : Shape := ⟨2, ![32768, 1024]⟩
abbrev S1024x512 : Shape := ⟨2, ![1024, 512]⟩
abbrev S1x512 : Shape := ⟨2, ![1, 512]⟩

abbrev nBuf : Space → Nat
  | .hbm => 65
  | .vmem => 0
  | .smem => 0
  | _ => 0

abbrev bufTy : (tb : Table) → Fin (tcTables nBuf tb) → BufTy
  | .hbm, ⟨0, _⟩ => ⟨S65536x512, .f32⟩
  | .hbm, ⟨1, _⟩ => ⟨S65536x512, .f32⟩
  | .hbm, ⟨2, _⟩ => ⟨S32768, .i32⟩
  | .hbm, ⟨3, _⟩ => ⟨S32768, .i32⟩
  | .hbm, ⟨4, _⟩ => ⟨S65536x512, .f32⟩
  | .hbm, ⟨5, _⟩ => ⟨S512x512, .f32⟩
  | .hbm, ⟨6, _⟩ => ⟨S512x512, .f32⟩
  | .hbm, ⟨7, _⟩ => ⟨S512x1024, .f32⟩
  | .hbm, ⟨8, _⟩ => ⟨S512, .f32⟩
  | .hbm, ⟨9, _⟩ => ⟨S512, .f32⟩
  | .hbm, ⟨10, _⟩ => ⟨S65536x512, .f32⟩
  | .hbm, ⟨11, _⟩ => ⟨S65536x512, .f32⟩
  | .hbm, ⟨12, _⟩ => ⟨S_, .i32⟩
  | .hbm, ⟨13, _⟩ => ⟨S32768, .i32⟩
  | .hbm, ⟨14, _⟩ => ⟨S32768, .i1⟩
  | .hbm, ⟨15, _⟩ => ⟨S_, .i32⟩
  | .hbm, ⟨16, _⟩ => ⟨S32768, .i32⟩
  | .hbm, ⟨17, _⟩ => ⟨S32768, .i32⟩
  | .hbm, ⟨18, _⟩ => ⟨S32768, .i32⟩
  | .hbm, ⟨19, _⟩ => ⟨S32768x1, .i32⟩
  | .hbm, ⟨20, _⟩ => ⟨S32768x512, .f32⟩
  | .hbm, ⟨21, _⟩ => ⟨S_, .i32⟩
  | .hbm, ⟨22, _⟩ => ⟨S32768, .i32⟩
  | .hbm, ⟨23, _⟩ => ⟨S32768, .i1⟩
  | .hbm, ⟨24, _⟩ => ⟨S_, .i32⟩
  | .hbm, ⟨25, _⟩ => ⟨S32768, .i32⟩
  | .hbm, ⟨26, _⟩ => ⟨S32768, .i32⟩
  | .hbm, ⟨27, _⟩ => ⟨S32768, .i32⟩
  | .hbm, ⟨28, _⟩ => ⟨S32768x1, .i32⟩
  | .hbm, ⟨29, _⟩ => ⟨S32768x512, .f32⟩
  | .hbm, ⟨30, _⟩ => ⟨S32768x1024, .f32⟩
  | .hbm, ⟨31, _⟩ => ⟨S32768x1024, .f32⟩
  | .hbm, ⟨32, _⟩ => ⟨S1024x512, .f32⟩
  | .hbm, ⟨33, _⟩ => ⟨S32768x512, .f32⟩
  | .hbm, ⟨34, _⟩ => ⟨S1x512, .f32⟩
  | .hbm, ⟨35, _⟩ => ⟨S32768x512, .f32⟩
  | .hbm, ⟨36, _⟩ => ⟨S32768x512, .f32⟩
  | .hbm, ⟨37, _⟩ => ⟨S_, .f32⟩
  | .hbm, ⟨38, _⟩ => ⟨S32768x512, .f32⟩
  | .hbm, ⟨39, _⟩ => ⟨S32768x512, .i1⟩
  | .hbm, ⟨40, _⟩ => ⟨S_, .f32⟩
  | .hbm, ⟨41, _⟩ => ⟨S32768x512, .f32⟩
  | .hbm, ⟨42, _⟩ => ⟨S32768x512, .f32⟩
  | .hbm, ⟨43, _⟩ => ⟨S32768x512, .f32⟩
  | .hbm, ⟨44, _⟩ => ⟨S1x512, .f32⟩
  | .hbm, ⟨45, _⟩ => ⟨S32768x512, .f32⟩
  | .hbm, ⟨46, _⟩ => ⟨S32768x512, .f32⟩
  | .hbm, ⟨47, _⟩ => ⟨S_, .i32⟩
  | .hbm, ⟨48, _⟩ => ⟨S32768, .i32⟩
  | .hbm, ⟨49, _⟩ => ⟨S32768, .i1⟩
  | .hbm, ⟨50, _⟩ => ⟨S_, .i32⟩
  | .hbm, ⟨51, _⟩ => ⟨S32768, .i32⟩
  | .hbm, ⟨52, _⟩ => ⟨S32768, .i32⟩
  | .hbm, ⟨53, _⟩ => ⟨S32768, .i32⟩
  | .hbm, ⟨54, _⟩ => ⟨S32768x1, .i32⟩
  | .hbm, ⟨55, _⟩ => ⟨S65536x512, .f32⟩
  | .hbm, ⟨56, _⟩ => ⟨S_, .i32⟩
  | .hbm, ⟨57, _⟩ => ⟨S32768, .i32⟩
  | .hbm, ⟨58, _⟩ => ⟨S32768, .i1⟩
  | .hbm, ⟨59, _⟩ => ⟨S_, .i32⟩
  | .hbm, ⟨60, _⟩ => ⟨S32768, .i32⟩
  | .hbm, ⟨61, _⟩ => ⟨S32768, .i32⟩
  | .hbm, ⟨62, _⟩ => ⟨S32768, .i32⟩
  | .hbm, ⟨63, _⟩ => ⟨S32768x1, .i32⟩
  | .hbm, ⟨64, _⟩ => ⟨S65536x512, .f32⟩
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_v2 : Ref sig .tc := ⟨.hbm, 13, rfl⟩
abbrev main_v3 : Ref sig .tc := ⟨.hbm, 14, rfl⟩
abbrev main_c_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_c_1 : Ref sig .tc := ⟨.hbm, 21, rfl⟩
abbrev main_v9 : Ref sig .tc := ⟨.hbm, 22, rfl⟩
abbrev main_v10 : Ref sig .tc := ⟨.hbm, 23, rfl⟩
abbrev main_c_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_call0_cst : Ref sig .tc := ⟨.hbm, 37, rfl⟩
abbrev main_call0_v0 : Ref sig .tc := ⟨.hbm, 38, rfl⟩
abbrev main_call0_v1 : Ref sig .tc := ⟨.hbm, 39, rfl⟩
abbrev main_call0_cst_0 : Ref sig .tc := ⟨.hbm, 40, rfl⟩
abbrev main_call0_v2 : Ref sig .tc := ⟨.hbm, 41, rfl⟩
abbrev main_call0_v3 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_c_3 : Ref sig .tc := ⟨.hbm, 47, rfl⟩
abbrev main_v27 : Ref sig .tc := ⟨.hbm, 48, rfl⟩
abbrev main_v28 : Ref sig .tc := ⟨.hbm, 49, rfl⟩
abbrev main_c_4 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_c_5 : Ref sig .tc := ⟨.hbm, 56, rfl⟩
abbrev main_v34 : Ref sig .tc := ⟨.hbm, 57, rfl⟩
abbrev main_v35 : Ref sig .tc := ⟨.hbm, 58, rfl⟩
abbrev main_c_6 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩

abbrev nD : Nat := 1
abbrev τ : Topo := Topo.v7x

variable {F : FTy → Type} [FloatOps F]

class Facts₀ : Prop where
  bcast_S_S32768 : S_.BroadcastsInDim S32768 (![] : Fin 0 → Fin S32768.rank)
  bcast_S32768_S32768x1_0 : S32768.BroadcastsInDim S32768x1 (![0] : Fin 1 → Fin S32768x1.rank)
  concatenates_S32768x512_S32768x512_S32768x1024_d1 : Shape.Concatenates [S32768x512, S32768x512] S32768x1024 1
  transposes_S512x1024_S1024x512_1_0 : S512x1024.Transposes [1, 0] S1024x512
  bcast_S512_S1x512_1 : S512.BroadcastsInDim S1x512 (![1] : Fin 1 → Fin S1x512.rank)
  bcast_S1x512_S32768x512_0_1 : S1x512.BroadcastsInDim S32768x512 (![0, 1] : Fin 2 → Fin S32768x512.rank)
  bcast_S_S32768x512 : S_.BroadcastsInDim S32768x512 (![] : Fin 0 → Fin S32768x512.rank)
  dot_S65536x512_S512x512_S65536x512_1_0_0_1_n_n_wf : DotDims.WF S65536x512 S512x512 S65536x512 [1] [0] [0] [1] [] []
  gather_S65536x512_S32768x1_S32768x512_1_0_n_n_0_1_1512_wf : GatherDims.WF S65536x512 S32768x1 S32768x512 [1] [0] [] [0] [] 1 ![1, 512]
  dot_S32768x1024_S1024x512_S32768x512_1_0_0_1_n_n_wf : DotDims.WF S32768x1024 S1024x512 S32768x512 [1] [0] [0] [1] [] []
  scatter_S65536x512_S32768x1_S32768x512_1_0_0_1_wf : ScatterDims.WF S65536x512 S32768x1 S32768x512 [1] [0] [0] 1

variable [Facts₀]

def dot_S65536x512_S512x512_S65536x512_1_0_0_1_n_n : DotDims S65536x512 S512x512 S65536x512 where
  lhsContracting := [1]
  rhsContracting := [0]
  lhsNonContracting := [0]
  rhsNonContracting := [1]
  lhsBatch := []
  rhsBatch := []
  wf := dot_S65536x512_S512x512_S65536x512_1_0_0_1_n_n_wf
def gather_S65536x512_S32768x1_S32768x512_1_0_n_n_0_1_1512 : GatherDims S65536x512 S32768x1 S32768x512 where
  offsetDims := [1]
  collapsedSliceDims := [0]
  operandBatchingDims := []
  startIndicesBatchingDims := []
  startIndexMap := [0]
  indexVectorDim := 1
  sliceSizes := ![1, 512]
  wf := gather_S65536x512_S32768x1_S32768x512_1_0_n_n_0_1_1512_wf
def dot_S32768x1024_S1024x512_S32768x512_1_0_0_1_n_n : DotDims S32768x1024 S1024x512 S32768x512 where
  lhsContracting := [1]
  rhsContracting := [0]
  lhsNonContracting := [0]
  rhsNonContracting := [1]
  lhsBatch := []
  rhsBatch := []
  wf := dot_S32768x1024_S1024x512_S32768x512_1_0_0_1_n_n_wf
def scatter_S65536x512_S32768x1_S32768x512_1_0_0_1 : ScatterDims S65536x512 S32768x1 S32768x512 where
  updateWindowDims := [1]
  insertedWindowDims := [0]
  scatterDimsToOperandDims := [0]
  indexVectorDim := 1
  wf := scatter_S65536x512_S32768x1_S32768x512_1_0_0_1_wf

class Facts : Prop extends Facts₀ where

variable [Facts]
-- ==== Proof.Spec.lean ====
/-
  The mathematics both programs compute, stated once over the literal sizes (no program is imported here).

  Two node-feature matrices [65536, 512] are each multiplied by a [512, 512] weight; 32768 rows are picked out of each
  product by an index vector (a negative index counted from the end), passed through tanh, mixed by a linear layer
  [512, 1024] whose first 512 input columns meet the first product's rows and whose last 512 meet the second's, shifted by a
  bias, passed through the leaky rectifier, shifted by a second bias, and written back over the picked rows of both products.
-/
import Idealize.ShloMosaic.Lib.ValueIdx
import Idealize.ShloMosaic.PureOps
import Idealize.ShloMosaic.PureOps.Ideal
import Mathlib.Algebra.BigOperators.Fin

noncomputable section

namespace Cert.Spec

open Idealize.ShloMosaic Idealize.ShloMosaic.ValueIdx

/-! ## Shapes -/

/-- A node-feature matrix. -/
abbrev SN : Shape := ⟨2, ![65536, 512]⟩
/-- The picked rows. -/
abbrev SM : Shape := ⟨2, ![32768, 512]⟩
/-- An index vector, and the same as one column. -/
abbrev SI : Shape := ⟨1, ![32768]⟩
abbrev SI1 : Shape := ⟨2, ![32768, 1]⟩
/-- A square weight, the mixing layer's weight, a bias. -/
abbrev SW : Shape := ⟨2, ![512, 512]⟩
abbrev SL : Shape := ⟨2, ![512, 1024]⟩
abbrev SB : Shape := ⟨1, ![512]⟩
abbrev SR : Shape := ⟨2, ![1, 512]⟩
abbrev S0 : Shape := ⟨0, ![]⟩

/-! ## The product -/

/-- A rows-by-columns product over the extended reals: entry (a, c) is the sum over k of x[a, k] · w[k, c]. -/
def mm {A K C : Nat} (x : FVec Ideal ⟨2, ![A, K]⟩ .f32) (w : FVec Ideal ⟨2, ![K, C]⟩ .f32) : FVec Ideal ⟨2, ![A, C]⟩ .f32 :=
  fun i => ∑ k : Fin K, (x (ix2 (i 0) k) : EReal) * (w (ix2 k (i 1)) : EReal)

theorem mm_apply {A K C : Nat} (x : FVec Ideal ⟨2, ![A, K]⟩ .f32) (w : FVec Ideal ⟨2, ![K, C]⟩ .f32) (a : Fin A) (c : Fin C) :
    mm x w (ix2 a c) = ∑ k : Fin K, (x (ix2 a k) : EReal) * (w (ix2 k c) : EReal) := rfl

/-! ## The leaky rectifier, as both programs spell it -/

/-- x where x ≥ 0, else the slope word times x; the comparison, the product and the two literals are the
    programs' own operations read at the extended reals. -/
def leaky (x : Ideal .f32) : Ideal .f32 :=
  Scalar.select (FloatOps.cmpf .oge x (FloatOps.ofBits (F := Ideal) .f32 0x00000000#32)) x
    (FloatOps.mulf (FloatOps.ofBits (F := Ideal) .f32 0x3C23D70A#32) x)

/-! ## The mixing layer -/

/-- Column k < 512 of the layer's weight, among its first 512 and among its last 512 input columns. -/
abbrev lo (k : Fin 512) : Fin 1024 := ⟨k.val, by have := k.isLt; omega⟩
abbrev hi (k : Fin 512) : Fin 1024 := ⟨512 + k.val, by have := k.isLt; omega⟩

/-- Entry (r, q) of the mixed rows from the two picked row blocks P and K, the layer's weight lw [512, 1024] and the two
    biases: leaky((sum_k tanh P[r,k] · lw[q,k] + sum_k tanh K[r,k] · lw[q,512+k]) + lb[q]) + b[q]. -/
def mixAt (P K : FVec Ideal SM .f32) (lw : FVec Ideal SL .f32) (lb b : FVec Ideal SB .f32) (r : Fin 32768) (q : Fin 512) :
    Ideal .f32 :=
  FloatOps.addf
    (leaky (FloatOps.addf
      (FloatOps.addf (∑ k : Fin 512, (Ideal.tanh (P (ix2 r k)) : EReal) * (lw (ix2 q (lo k)) : EReal) : EReal)
        (∑ k : Fin 512, (Ideal.tanh (K (ix2 r k)) : EReal) * (lw (ix2 q (hi k)) : EReal) : EReal))
      (lb (ix1 q))))
    (b (ix1 q))

/-- The mixed rows as one array. -/
def mix (P K : FVec Ideal SM .f32) (lw : FVec Ideal SL .f32) (lb b : FVec Ideal SB .f32) : FVec Ideal SM .f32 :=
  fun i => mixAt P K lw lb b (i 0) (i 1)

theorem mix_apply (P K : FVec Ideal SM .f32) (lw : FVec Ideal SL .f32) (lb b : FVec Ideal SB .f32) (r : Fin 32768) (q : Fin 512) :
    mix P K lw lb b (ix2 r q) = mixAt P K lw lb b r q := rfl

/-- The same entry with the layer's weight given as its two transposed halves wp[k, q] = lw[q, k], wk[k, q] = lw[q, 512 + k]
    and the biases as one-row matrices: how a block of rows is mixed on the matrix unit. -/
def mixRowsAt (P K : FVec Ideal SM .f32) (wp wk : FVec Ideal SW .f32) (lbr br : FVec Ideal SR .f32) (r : Fin 32768) (q : Fin 512) :
    Ideal .f32 :=
  FloatOps.addf
    (leaky (FloatOps.addf
      (FloatOps.addf (∑ k : Fin 512, (Ideal.tanh (P (ix2 r k)) : EReal) * (wp (ix2 k q) : EReal) : EReal)
        (∑ k : Fin 512, (Ideal.tanh (K (ix2 r k)) : EReal) * (wk (ix2 k q) : EReal) : EReal))
      (lbr (ix2 (0 : Fin 1) q))))
    (br (ix2 (0 : Fin 1) q))

def mixRows (P K : FVec Ideal SM .f32) (wp wk : FVec Ideal SW .f32) (lbr br : FVec Ideal SR .f32) : FVec Ideal SM .f32 :=
  fun i => mixRowsAt P K wp wk lbr br (i 0) (i 1)

theorem mixRows_apply (P K : FVec Ideal SM .f32) (wp wk : FVec Ideal SW .f32) (lbr br : FVec Ideal SR .f32) (r : Fin 32768) (q : Fin 512) :
    mixRows P K wp wk lbr br (ix2 r q) = mixRowsAt P K wp wk lbr br r q := rfl

/-- When the halves and the rows are those of lw, lb, b, the two spellings are one array. -/
theorem mixRows_eq_mix (P K : FVec Ideal SM .f32) (lw : FVec Ideal SL .f32) (lb b : FVec Ideal SB .f32)
    (wp wk : FVec Ideal SW .f32) (lbr br : FVec Ideal SR .f32)
    (hp : ∀ (k q : Fin 512), wp (ix2 k q) = lw (ix2 q (lo k))) (hk : ∀ (k q : Fin 512), wk (ix2 k q) = lw (ix2 q (hi k)))
    (hl : ∀ q : Fin 512, lbr (ix2 (0 : Fin 1) q) = lb (ix1 q)) (hb : ∀ q : Fin 512, br (ix2 (0 : Fin 1) q) = b (ix1 q)) :
    mixRows P K wp wk lbr br = mix P K lw lb b := by
  funext i
  obtain ⟨r, q, rfl⟩ : ∃ (r : Fin 32768) (q : Fin 512), i = ix2 r q := ⟨i 0, i 1, eq_ix2 i⟩
  show mixRowsAt P K wp wk lbr br r q = mixAt P K lw lb b r q
  unfold mixRowsAt mixAt
  rw [hl, hb]
  simp only [hp, hk]

/-- A sum over 1024 terms is the sum of its first 512 and its last 512 terms (any commutative monoid). -/
theorem sum_split {M : Type} [AddCommMonoid M] (f : Fin 1024 → M) :
    ∑ k : Fin 1024, f k = (∑ k : Fin 512, f (lo k)) + ∑ k : Fin 512, f (hi k) := by
  exact Fin.sum_univ_add (a := 512) (b := 512) f

/-! ## The rows picked and written back: the host operations both programs share -/

/-- The shape records and facts the two programs each state for the shared host operations. -/
structure Recs where
  gath : GatherDims SN SI1 SM
  scat : ScatterDims SN SI1 SM
  b0 : S0.BroadcastsInDim SI (![] : Fin 0 → Fin SI.rank)
  b1 : SI.BroadcastsInDim SI1 (![0] : Fin 1 → Fin SI1.rank)

/-- The row numbers as one column: a negative index counted from the end (65536 added). -/
def rows (R : Recs) (a : IVec SI 32) : IVec SI1 32 :=
  broadcastInDim SI1 ![0] R.b1
    (Idealize.ShloMosaic.select (cmpi .slt a (broadcastInDim SI ![] R.b0 (constantI S0 32 0#32)))
      (addi a (broadcastInDim SI ![] R.b0 (constantI S0 32 65536#32))) a)

/-- The rows of T the index vector names. -/
def pick (R : Recs) (T : FVec Ideal SN .f32) (a : IVec SI 32) : FVec Ideal SM .f32 :=
  Host.gather R.gath T (rows R a)

/-- T with the rows U written over the rows the index vector names. -/
def put (R : Recs) (T : FVec Ideal SN .f32) (a : IVec SI 32) (U : FVec Ideal SM .f32) : FVec Ideal SN .f32 :=
  Host.scatter R.scat (fun _ b => b) T (rows R a) U

/-- The mixed rows of the whole computation. -/
def mixed (R : Recs) (a0 a1 : FVec Ideal SN .f32) (a2 a3 : IVec SI 32) (a5 a6 : FVec Ideal SW .f32)
    (a7 : FVec Ideal SL .f32) (a8 a9 : FVec Ideal SB .f32) : FVec Ideal SM .f32 :=
  mix (pick R (mm a0 a5) a2) (pick R (mm a1 a6) a3) a7 a8 a9

/-- The first result: the first product with the mixed rows written back at the first index vector. -/
def outP (R : Recs) (a0 a1 : FVec Ideal SN .f32) (a2 a3 : IVec SI 32) (a5 a6 : FVec Ideal SW .f32)
    (a7 : FVec Ideal SL .f32) (a8 a9 : FVec Ideal SB .f32) : FVec Ideal SN .f32 :=
  put R (mm a0 a5) a2 (mixed R a0 a1 a2 a3 a5 a6 a7 a8 a9)

/-- The second result: the second product with the same mixed rows written back at the second index vector. -/
def outK (R : Recs) (a0 a1 : FVec Ideal SN .f32) (a2 a3 : IVec SI 32) (a5 a6 : FVec Ideal SW .f32)
    (a7 : FVec Ideal SL .f32) (a8 a9 : FVec Ideal SB .f32) : FVec Ideal SN .f32 :=
  put R (mm a1 a6) a3 (mixed R a0 a1 a2 a3 a5 a6 a7 a8 a9)

end Cert.Spec

end
-- ==== Proof.LibMatmul.lean ====
/-
  A rows-by-columns product read at an entry (a general lemma: nothing here depends on a program).

  For the dimension numbers "contract the left operand's axis 1 with the right operand's axis 0, no batch axis" over
  operands [A, K] and [K, C], the contraction at entry (a, c), at the ideal values, is the sum over k < K of
  lhs[a, k] · rhs[k, c]; so is a matrix-unit product into a zero accumulator, and so is the host's dot_general.
-/
import Idealize.ShloMosaic.Lib.ValueIdx
import Idealize.ShloMosaic.PureOps.Ideal.Laws

noncomputable section

namespace Cert.Lib.Matmul

open Idealize.ShloMosaic Idealize.ShloMosaic.ValueIdx

variable {A K C : Nat}

/-- The left operand's index keeps the result's row. -/
theorem lhs0 (j : (⟨2, ![A, C]⟩ : Shape).Idx) (q : (DotDims.plain A K C).contr.Idx) :
    ((DotDims.plain A K C).lhsIdx j q 0).val = (j 0).val := by
  unfold DotDims.lhsIdx
  rw [dif_neg (show ¬(0 : Fin 2) ∈ (DotDims.plain A K C).lhsBatch from List.not_mem_nil),
    dif_pos (show (0 : Fin 2) ∈ (DotDims.plain A K C).lhsNonContracting from List.mem_singleton.mpr rfl)]
  rfl

/-- The left operand's column is the contraction coordinate. -/
theorem lhs1 (j : (⟨2, ![A, C]⟩ : Shape).Idx) (q : (DotDims.plain A K C).contr.Idx) :
    ((DotDims.plain A K C).lhsIdx j q 1).val = (q ⟨0, Nat.one_pos⟩).val :=
  (DotDims.plain A K C).lhsIdx_val_of_single rfl j q

/-- The right operand's row is the contraction coordinate. -/
theorem rhs0 (j : (⟨2, ![A, C]⟩ : Shape).Idx) (q : (DotDims.plain A K C).contr.Idx) :
    ((DotDims.plain A K C).rhsIdx j q 0).val = (q ⟨0, Nat.one_pos⟩).val :=
  (DotDims.plain A K C).rhsIdx_val_of_single rfl j q

/-- The right operand's index keeps the result's column. -/
theorem rhs1 (j : (⟨2, ![A, C]⟩ : Shape).Idx) (q : (DotDims.plain A K C).contr.Idx) :
    ((DotDims.plain A K C).rhsIdx j q 1).val = (j 1).val := by
  unfold DotDims.rhsIdx
  rw [dif_neg (show ¬(1 : Fin 2) ∈ (DotDims.plain A K C).rhsBatch from List.not_mem_nil),
    dif_pos (show (1 : Fin 2) ∈ (DotDims.plain A K C).rhsNonContracting from List.mem_singleton.mpr rfl)]
  rfl

/-- The contraction at entry (a, c) is the sum over the K products lhs[a, k] · rhs[k, c]. -/
theorem contr_sum (lhs : (⟨2, ![A, K]⟩ : Shape).Idx → EReal) (rhs : (⟨2, ![K, C]⟩ : Shape).Idx → EReal)
    (a : Fin A) (c : Fin C) :
    ∑ q : (DotDims.plain A K C).contr.Idx,
        lhs ((DotDims.plain A K C).lhsIdx (ix2 a c) q) * rhs ((DotDims.plain A K C).rhsIdx (ix2 a c) q)
      = ∑ k : Fin K, lhs (ix2 a k) * rhs (ix2 k c) := by
  rw [← Equiv.sum_comp (contrEquiv1 (DotDims.plain A K C) K rfl rfl).symm]
  refine Finset.sum_congr rfl fun k _ => ?_
  have hk := contrEquiv1_symm_val (DotDims.plain A K C) K rfl rfl k
  have el : (DotDims.plain A K C).lhsIdx (ix2 a c) ((contrEquiv1 (DotDims.plain A K C) K rfl rfl).symm k)
      = ix2 a k := funext fun x => Fin.ext (by
    match x with
    | ⟨0, _⟩ => exact lhs0 _ _
    | ⟨1, _⟩ => exact (lhs1 _ _).trans hk)
  have er : (DotDims.plain A K C).rhsIdx (ix2 a c) ((contrEquiv1 (DotDims.plain A K C) K rfl rfl).symm k)
      = ix2 k c := funext fun x => Fin.ext (by
    match x with
    | ⟨0, _⟩ => exact (rhs0 _ _).trans hk
    | ⟨1, _⟩ => exact rhs1 _ _)
  rw [el, er]

/-- A matrix-unit product into a zero accumulator, at entry (a, c). -/
theorem matmul_zero_apply {φ₁ φ₂ : FTy} (prec : Option ContractPrecision)
    (lhs : FVec Ideal ⟨2, ![A, K]⟩ φ₁) (rhs : FVec Ideal ⟨2, ![K, C]⟩ φ₂) (a : Fin A) (c : Fin C) :
    FloatOps.matmul (DotDims.plain A K C) prec lhs rhs (constant ⟨2, ![A, C]⟩ .f32 0x00000000#32) (ix2 a c)
      = ∑ k : Fin K, (lhs (ix2 a k) : EReal) * (rhs (ix2 k c) : EReal) := by
  rw [Ideal.matmul_constant_zero_apply]
  exact contr_sum lhs rhs a c

/-- The host's dot_general, at entry (a, c). -/
theorem dotGeneral_apply {φ₁ φ₂ : FTy} (prec : Option ContractPrecision) (sched : HostSchedule)
    (lhs : FVec Ideal ⟨2, ![A, K]⟩ φ₁) (rhs : FVec Ideal ⟨2, ![K, C]⟩ φ₂) (a : Fin A) (c : Fin C) :
    FloatOps.dotGeneral (DotDims.plain A K C) prec sched lhs rhs (ix2 a c)
      = ∑ k : Fin K, (lhs (ix2 a k) : EReal) * (rhs (ix2 k c) : EReal) := by
  rw [Ideal.dotGeneral_apply]
  exact contr_sum lhs rhs a c

end Cert.Lib.Matmul

end
-- ==== Proof.KMatmul.lean ====
/-
  The two product regions: each ends with its output array holding the rows-by-columns product of its two argument
  arrays (a block of 2048 rows of the product is the product of the same 2048 rows of the left operand with the whole
  right operand, and the 32 blocks tile the array).
-/
import proofs.«108968_j78950088835529_1_alg».proof.Proof.Gen.KernelIdeal.Frame
import proofs.«108968_j78950088835529_1_alg».proof.Proof.Spec
import proofs.«108968_j78950088835529_1_alg».proof.Proof.LibMatmul
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- The zero offsets of a whole block, however spelt. -/
theorem zeros2 : (![0, 0] : Fin 2 → Nat) = fun _ => 0 := funext fun a => by fin_cases a <;> rfl

/-! ## The first product region -/

/-- The block indices over the 32 grid points: the left operand's row block moves with the output's, its column block
    and the right operand's block stay at 0, and the output's row block is below 32. -/
theorem index_facts0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 31 :=
  (by decide +kernel : ∀ t : Fin grid0.N, _)

/-- Every one of the 32 row blocks of the output is some point's. -/
theorem index_onto0 : ∀ q0 : Fin 32, ∃ t : Fin cfg0.N, win0_2.index t = ![q0.val, 0] :=
  (by decide +kernel : ∀ q0 : Fin 32, ∃ t : Fin grid0.N, win0_2.index t = ![q0.val, 0])

/-- The body's payload at an entry: the sum over k of x0[p, k] · x1[k, q] (the narrowing of both operands is the
    identity at the extended reals, and the accumulator is the zero splat). -/
theorem product0_apply (x0 : Vec Ideal S2048x512 .f32) (x1 : Vec Ideal S512x512 .f32) (p : Fin 2048) (q : Fin 512) :
    k0_pay1 x0 x1 (ix2 p q) = ∑ k : Fin 512, (x0 (ix2 p k) : EReal) * (x1 (ix2 k q) : EReal) := by
  unfold k0_pay1
  exact Cert.Lib.Matmul.matmul_zero_apply (A := 2048) (K := 512) (C := 512) none x0 x1 p q

/-- What point t writes back is block t of the product of the two argument arrays as the region finds them. -/
theorem flushed0_eq (V : (c : Dev nD) → (b : Ref sig .tc) → Buf (Elt Ideal) ((c : Thread nD τ).loc b)) (c : Dev nD)
    (t : Fin cfg0.N) :
    (dat0 (F := Ideal) V c).flushed 2 t
      = ((cfg0.win 2).blk t).view.read (Elt Ideal) (Cert.Spec.mm (V c main_arg0) (V c main_arg5)) := by
  show (cfg0.win 2).cut (grid0.coords t) ((dat0 V c).after 2 t) = _
  rw [after0_2]
  unfold out0_2
  rw [View.canon_unit_zero zeros2]
  simp only [View.ld_unit_zero (S := S2048x512) zeros2, View.ld_unit_zero (S := S512x512) zeros2]
  obtain ⟨e0, e1, e2, e3, e4, e5⟩ := index_facts0 t
  funext j
  obtain ⟨p, q, rfl⟩ : ∃ (p : Fin 2048) (q : Fin 512), j = ix2 p q := ⟨j 0, j 1, eq_ix2 j⟩
  show k0_pay1 (iblk0 V c 0 t) (iblk0 V c 1 t) (ix2 p q)
    = Cert.Spec.mm (V c main_arg0) (V c main_arg5) (((cfg0.win 2).blk t).view.emb (ix2 p q))
  refine (product0_apply _ _ p q).trans ?_
  -- the left operand's block row p is the array's row (block index) · 2048 + p, all of its 512 columns
  have hl : ∀ k : Fin 512, iblk0 V c 0 t (ix2 p k)
      = V c main_arg0 (ix2 ((((cfg0.win 2).blk t).view.emb (ix2 p q)) 0) k) := fun k => by
    show V c main_arg0 (((cfg0.win 0).blk t).view.emb (ix2 p k)) = V c main_arg0 _
    refine congrArg (V c main_arg0) (funext fun a => Fin.ext ?_)
    match a with
    | ⟨0, _⟩ =>
      show win0_0.index t (0 : Fin 2) * 2048 + 1 * p.val = win0_2.index t (0 : Fin 2) * 2048 + 1 * p.val
      omega
    | ⟨1, _⟩ =>
      show win0_0.index t (1 : Fin 2) * 512 + 1 * k.val = k.val
      omega
  -- the right operand's block is the whole array
  have hr : ∀ k : Fin 512, iblk0 V c 1 t (ix2 k q)
      = V c main_arg5 (ix2 k ((((cfg0.win 2).blk t).view.emb (ix2 p q)) 1)) := fun k => by
    show V c main_arg5 (((cfg0.win 1).blk t).view.emb (ix2 k q)) = V c main_arg5 _
    refine congrArg (V c main_arg5) (funext fun a => Fin.ext ?_)
    match a with
    | ⟨0, _⟩ =>
      show win0_1.index t (0 : Fin 2) * 512 + 1 * k.val = k.val
      omega
    | ⟨1, _⟩ =>
      show win0_1.index t (1 : Fin 2) * 512 + 1 * q.val = win0_2.index t (1 : Fin 2) * 512 + 1 * q.val
      omega
  exact Finset.sum_congr rfl fun k _ => by rw [hl k, hr k]

/-- An index of the output array is in point t's block iff each coordinate is in the block's range on its axis. -/
theorem mem_block0 (t : Fin cfg0.N) (i : S65536x512.Idx) :
    i ∈ ((cfg0.win 2).blk t).view.set
      ↔ ∀ a : Fin 2, win0_2.index t a * S2048x512.size a ≤ (i a).val
          ∧ (i a).val < win0_2.index t a * S2048x512.size a + S2048x512.size a := by
  show i ∈ ((View.whole main_v0).slice (win0_2.rect t)).set ↔ _
  rw [View.set_slice_whole, Rect.mem_set_unit]
  exact Iff.rfl

/-- The 32 blocks of 2048 rows tile the array: row r is in the block of the point whose row block is r / 2048. -/
theorem cover0 (i : S65536x512.Idx) :
    ∃ t : Fin cfg0.N, (cfg0.win 2).flush t = true ∧ i ∈ ((cfg0.win 2).blk t).view.set := by
  have hi0 : (i 0).val < 65536 := (i 0).isLt
  have hi1 : (i 1).val < 512 := (i 1).isLt
  obtain ⟨t, ht⟩ := index_onto0 ⟨(i 0).val / 2048, by omega⟩
  have q0 : win0_2.index t (0 : Fin 2) = (i 0).val / 2048 := congrFun ht 0
  have q1 : win0_2.index t (1 : Fin 2) = 0 := congrFun ht 1
  refine ⟨t, flush0_2 t, ?_⟩
  rw [mem_block0]
  intro a
  match a with
  | ⟨0, _⟩ =>
    show win0_2.index t (0 : Fin 2) * 2048 ≤ (i 0).val ∧ (i 0).val < win0_2.index t (0 : Fin 2) * 2048 + 2048
    omega
  | ⟨1, _⟩ =>
    show win0_2.index t (1 : Fin 2) * 512 ≤ (i 1).val ∧ (i 1).val < win0_2.index t (1 : Fin 2) * 512 + 512
    omega

/-- The first product region's output array after the region, from any entry contents V. -/
theorem final0 (V : (c : Dev nD) → (b : Ref sig .tc) → Buf (Elt Ideal) ((c : Thread nD τ).loc b)) (c : Dev nD) :
    (dat0 (F := Ideal) V c).arrAt 2 cfg0.N = Cert.Spec.mm (V c main_arg0) (V c main_arg5) :=
  (dat0 (F := Ideal) V c).arrAt_eq_of_cover 2 _ (fun t _ => flushed0_eq V c t) cover0

/-! ## The second product region: the same argument over its own windows -/

/-- The block indices over the 32 grid points: the left operand's row block moves with the output's, its column block
    and the right operand's block stay at 0, and the output's row block is below 32. -/
theorem index_facts1 : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) ≤ 31 :=
  (by decide +kernel : ∀ t : Fin grid1.N, _)

/-- Every one of the 32 row blocks of the output is some point's. -/
theorem index_onto1 : ∀ q0 : Fin 32, ∃ t : Fin cfg1.N, win1_2.index t = ![q0.val, 0] :=
  (by decide +kernel : ∀ q0 : Fin 32, ∃ t : Fin grid1.N, win1_2.index t = ![q0.val, 0])

/-- The body's payload at an entry: the sum over k of x0[p, k] · x1[k, q] (the narrowing of both operands is the
    identity at the extended reals, and the accumulator is the zero splat). -/
theorem product1_apply (x0 : Vec Ideal S2048x512 .f32) (x1 : Vec Ideal S512x512 .f32) (p : Fin 2048) (q : Fin 512) :
    k1_pay1 x0 x1 (ix2 p q) = ∑ k : Fin 512, (x0 (ix2 p k) : EReal) * (x1 (ix2 k q) : EReal) := by
  unfold k1_pay1
  exact Cert.Lib.Matmul.matmul_zero_apply (A := 2048) (K := 512) (C := 512) none x0 x1 p q

/-- What point t writes back is block t of the product of the two argument arrays as the region finds them. -/
theorem flushed1_eq (V : (c : Dev nD) → (b : Ref sig .tc) → Buf (Elt Ideal) ((c : Thread nD τ).loc b)) (c : Dev nD)
    (t : Fin cfg1.N) :
    (dat1 (F := Ideal) V c).flushed 2 t
      = ((cfg1.win 2).blk t).view.read (Elt Ideal) (Cert.Spec.mm (V c main_arg1) (V c main_arg6)) := by
  show (cfg1.win 2).cut (grid1.coords t) ((dat1 V c).after 2 t) = _
  rw [after1_2]
  unfold out1_2
  rw [View.canon_unit_zero zeros2]
  simp only [View.ld_unit_zero (S := S2048x512) zeros2, View.ld_unit_zero (S := S512x512) zeros2]
  obtain ⟨e0, e1, e2, e3, e4, e5⟩ := index_facts1 t
  funext j
  obtain ⟨p, q, rfl⟩ : ∃ (p : Fin 2048) (q : Fin 512), j = ix2 p q := ⟨j 0, j 1, eq_ix2 j⟩
  show k1_pay1 (iblk1 V c 0 t) (iblk1 V c 1 t) (ix2 p q)
    = Cert.Spec.mm (V c main_arg1) (V c main_arg6) (((cfg1.win 2).blk t).view.emb (ix2 p q))
  refine (product1_apply _ _ p q).trans ?_
  -- the left operand's block row p is the array's row (block index) · 2048 + p, all of its 512 columns
  have hl : ∀ k : Fin 512, iblk1 V c 0 t (ix2 p k)
      = V c main_arg1 (ix2 ((((cfg1.win 2).blk t).view.emb (ix2 p q)) 0) k) := fun k => by
    show V c main_arg1 (((cfg1.win 0).blk t).view.emb (ix2 p k)) = V c main_arg1 _
    refine congrArg (V c main_arg1) (funext fun a => Fin.ext ?_)
    match a with
    | ⟨0, _⟩ =>
      show win1_0.index t (0 : Fin 2) * 2048 + 1 * p.val = win1_2.index t (0 : Fin 2) * 2048 + 1 * p.val
      omega
    | ⟨1, _⟩ =>
      show win1_0.index t (1 : Fin 2) * 512 + 1 * k.val = k.val
      omega
  -- the right operand's block is the whole array
  have hr : ∀ k : Fin 512, iblk1 V c 1 t (ix2 k q)
      = V c main_arg6 (ix2 k ((((cfg1.win 2).blk t).view.emb (ix2 p q)) 1)) := fun k => by
    show V c main_arg6 (((cfg1.win 1).blk t).view.emb (ix2 k q)) = V c main_arg6 _
    refine congrArg (V c main_arg6) (funext fun a => Fin.ext ?_)
    match a with
    | ⟨0, _⟩ =>
      show win1_1.index t (0 : Fin 2) * 512 + 1 * k.val = k.val
      omega
    | ⟨1, _⟩ =>
      show win1_1.index t (1 : Fin 2) * 512 + 1 * q.val = win1_2.index t (1 : Fin 2) * 512 + 1 * q.val
      omega
  exact Finset.sum_congr rfl fun k _ => by rw [hl k, hr k]

/-- An index of the output array is in point t's block iff each coordinate is in the block's range on its axis. -/
theorem mem_block1 (t : Fin cfg1.N) (i : S65536x512.Idx) :
    i ∈ ((cfg1.win 2).blk t).view.set
      ↔ ∀ a : Fin 2, win1_2.index t a * S2048x512.size a ≤ (i a).val
          ∧ (i a).val < win1_2.index t a * S2048x512.size a + S2048x512.size a := by
  show i ∈ ((View.whole main_v1).slice (win1_2.rect t)).set ↔ _
  rw [View.set_slice_whole, Rect.mem_set_unit]
  exact Iff.rfl

/-- The 32 blocks of 2048 rows tile the array: row r is in the block of the point whose row block is r / 2048. -/
theorem cover1 (i : S65536x512.Idx) :
    ∃ t : Fin cfg1.N, (cfg1.win 2).flush t = true ∧ i ∈ ((cfg1.win 2).blk t).view.set := by
  have hi0 : (i 0).val < 65536 := (i 0).isLt
  have hi1 : (i 1).val < 512 := (i 1).isLt
  obtain ⟨t, ht⟩ := index_onto1 ⟨(i 0).val / 2048, by omega⟩
  have q0 : win1_2.index t (0 : Fin 2) = (i 0).val / 2048 := congrFun ht 0
  have q1 : win1_2.index t (1 : Fin 2) = 0 := congrFun ht 1
  refine ⟨t, flush1_2 t, ?_⟩
  rw [mem_block1]
  intro a
  match a with
  | ⟨0, _⟩ =>
    show win1_2.index t (0 : Fin 2) * 2048 ≤ (i 0).val ∧ (i 0).val < win1_2.index t (0 : Fin 2) * 2048 + 2048
    omega
  | ⟨1, _⟩ =>
    show win1_2.index t (1 : Fin 2) * 512 ≤ (i 1).val ∧ (i 1).val < win1_2.index t (1 : Fin 2) * 512 + 512
    omega

/-- The second product region's output array after the region, from any entry contents V. -/
theorem final1 (V : (c : Dev nD) → (b : Ref sig .tc) → Buf (Elt Ideal) ((c : Thread nD τ).loc b)) (c : Dev nD) :
    (dat1 (F := Ideal) V c).arrAt 2 cfg1.N = Cert.Spec.mm (V c main_arg1) (V c main_arg6) :=
  (dat1 (F := Ideal) V c).arrAt_eq_of_cover 2 _ (fun t _ => flushed1_eq V c t) cover1

end Cert.KernelIdeal.Hand

end
-- ==== Proof.KMixer.lean ====
/-
  The mixing region: it ends with its output array holding the mixed rows (a block of 1024 rows is mixed from the same
  1024 rows of the two picked row blocks, the two transposed weight halves and the two one-row biases; the 32 blocks
  tile the array).
-/
import proofs.«108968_j78950088835529_1_alg».proof.Proof.Gen.KernelIdeal.Frame
import proofs.«108968_j78950088835529_1_alg».proof.Proof.Spec
import proofs.«108968_j78950088835529_1_alg».proof.Proof.LibMatmul
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat Cfg Window)

namespace Mixer

/-! ## The body's payload at an entry -/

/-- The printed dimension numbers are the plain rows-by-columns product's. -/
theorem dot_plain : dot_S1024x512_S512x512_S1024x512_1_0_0_1_n_n = DotDims.plain 1024 512 512 := rfl

/-- One of the two products at an entry: the left block through tanh, against the weight half. -/
theorem prod_apply (u : Vec Ideal S1024x512 .f32) (w : Vec Ideal S512x512 .f32) (p : Fin 1024) (q : Fin 512) :
    matmul (F := Ideal) dot_S1024x512_S512x512_S1024x512_1_0_0_1_n_n none
        (truncf (F := Ideal) .bf16 (tanh (F := Ideal) (shapeCast S1024x512 u shapeCasts_S1024x512_S1024x512)) bitsLt_bf16_f32)
        (truncf (F := Ideal) .bf16 (shapeCast S512x512 w shapeCasts_S512x512_S512x512) bitsLt_bf16_f32)
        (constant (F := Ideal) S1024x512 .f32 0x00000000#32) (ix2 p q)
      = ∑ k : Fin 512, (Ideal.tanh (u (ix2 p k)) : EReal) * (w (ix2 k q) : EReal) := by
  rw [shapeCast_self, shapeCast_self, dot_plain]
  exact Cert.Lib.Matmul.matmul_zero_apply none _ _ p q

/-- A one-row bias broadcast along the 1024 rows, at an entry. -/
theorem row_apply (v : Vec Ideal S1x512 .f32) (p : Fin 1024) (q : Fin 512) :
    broadcastTo S1024x512 (shapeCast S1x512 v shapeCasts_S1x512_S1x512) broadcasts_S1x512_S1024x512 (ix2 p q)
      = v (ix2 (0 : Fin 1) q) := by
  rw [shapeCast_self]
  refine broadcastTo_apply v broadcasts_S1x512_S1024x512 (ix2 p q) (ix2 (0 : Fin 1) q) ?_
  intro a
  match a with
  | ⟨0, _⟩ => simp
  | ⟨1, _⟩ =>
    show q.val = if (512 : Nat) = 1 then 0 else q.val
    rfl

/-- The body's payload at an entry. -/
theorem pay_apply (x0 x1 : Vec Ideal S1024x512 .f32) (x2 x3 : Vec Ideal S512x512 .f32) (x4 x5 : Vec Ideal S1x512 .f32)
    (p : Fin 1024) (q : Fin 512) :
    k2_pay1 x0 x1 x2 x3 x4 x5 (ix2 p q)
      = FloatOps.addf (Cert.Spec.leaky (FloatOps.addf (FloatOps.addf
          (∑ k : Fin 512, (Ideal.tanh (x0 (ix2 p k)) : EReal) * (x2 (ix2 k q) : EReal))
          (∑ k : Fin 512, (Ideal.tanh (x1 (ix2 p k)) : EReal) * (x3 (ix2 k q) : EReal)))
          (x4 (ix2 (0 : Fin 1) q)))) (x5 (ix2 (0 : Fin 1) q)) := by
  unfold k2_pay1
  simp only [addf, select, cmpf, mulf, broadcast]
  rw [prod_apply, prod_apply, row_apply, row_apply]
  rfl

/-! ## From the 32 blocks to the array -/

theorem hz : (![0, 0] : Fin 2 → Nat) = fun _ => 0 := funext fun a => by fin_cases a <;> rfl

/-- The printed index maps, decided over the 32 grid points: the two row-block inputs move with the output along the rows,
    every other block index is zero, and the output's row-block index stays below 32. -/
theorem idx_facts : ∀ t : Fin cfg2.N,
    win2_0.index t (0 : Fin 2) = win2_6.index t (0 : Fin 2) ∧ win2_0.index t (1 : Fin 2) = 0
    ∧ win2_1.index t (0 : Fin 2) = win2_6.index t (0 : Fin 2) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (1 : Fin 2) = 0 ∧ win2_6.index t (0 : Fin 2) ≤ 31 :=
  (by decide +kernel : ∀ t : Fin grid2.N, _)

/-- Every one of the 32 row blocks is some point's. -/
theorem idx_onto : ∀ q0 : Fin 32, ∃ t : Fin cfg2.N, win2_6.index t = ![q0.val, 0] :=
  (by decide +kernel : ∀ q0 : Fin 32, ∃ t : Fin grid2.N, win2_6.index t = ![q0.val, 0])

section Blocks

variable (V : (c : Dev nD) → (b : Ref sig .tc) → Buf (Elt Ideal) ((c : Thread nD τ).loc b)) (c : Dev nD)

/-- Row p of the first row-block input at point t is row r of its array, r the output block's first row plus p. -/
theorem rowsP_apply (t : Fin cfg2.N) (p : Fin 1024) (k : Fin 512) (r : Fin 32768)
    (hr : r.val = win2_6.index t (0 : Fin 2) * 1024 + p.val) :
    (iblk2 (F := Ideal) V c 0 t : Vec Ideal S1024x512 .f32) (ix2 p k)
      = (V c main_v8 : FVec Ideal Cert.Spec.SM .f32) (ix2 r k) := by
  obtain ⟨e0, e1, -⟩ := idx_facts t
  unfold iblk2
  rw [View.read_apply]
  show (V c main_v8 : FVec Ideal Cert.Spec.SM .f32) _ = (V c main_v8 : FVec Ideal Cert.Spec.SM .f32) _
  refine congrArg (V c main_v8 : FVec Ideal Cert.Spec.SM .f32) (funext fun a => Fin.ext ?_)
  match a with
  | ⟨0, _⟩ => show win2_0.index t (0 : Fin 2) * 1024 + 1 * p.val = r.val; omega
  | ⟨1, _⟩ => show win2_0.index t (1 : Fin 2) * 512 + 1 * k.val = k.val; omega

/-- The same for the second row-block input. -/
theorem rowsK_apply (t : Fin cfg2.N) (p : Fin 1024) (k : Fin 512) (r : Fin 32768)
    (hr : r.val = win2_6.index t (0 : Fin 2) * 1024 + p.val) :
    (iblk2 (F := Ideal) V c 1 t : Vec Ideal S1024x512 .f32) (ix2 p k)
      = (V c main_v15 : FVec Ideal Cert.Spec.SM .f32) (ix2 r k) := by
  obtain ⟨-, -, e0, e1, -⟩ := idx_facts t
  unfold iblk2
  rw [View.read_apply]
  show (V c main_v15 : FVec Ideal Cert.Spec.SM .f32) _ = (V c main_v15 : FVec Ideal Cert.Spec.SM .f32) _
  refine congrArg (V c main_v15 : FVec Ideal Cert.Spec.SM .f32) (funext fun a => Fin.ext ?_)
  match a with
  | ⟨0, _⟩ => show win2_1.index t (0 : Fin 2) * 1024 + 1 * p.val = r.val; omega
  | ⟨1, _⟩ => show win2_1.index t (1 : Fin 2) * 512 + 1 * k.val = k.val; omega

/-- The first weight half's one block is the whole array. -/
theorem wP_apply (t : Fin cfg2.N) (k q : Fin 512) :
    (iblk2 (F := Ideal) V c 2 t : Vec Ideal S512x512 .f32) (ix2 k q)
      = (V c main_v17 : FVec Ideal Cert.Spec.SW .f32) (ix2 k q) := by
  obtain ⟨-, -, -, -, e0, e1, -⟩ := idx_facts t
  unfold iblk2
  rw [View.read_apply]
  show (V c main_v17 : FVec Ideal Cert.Spec.SW .f32) _ = (V c main_v17 : FVec Ideal Cert.Spec.SW .f32) _
  refine congrArg (V c main_v17 : FVec Ideal Cert.Spec.SW .f32) (funext fun a => Fin.ext ?_)
  match a with
  | ⟨0, _⟩ => show win2_2.index t (0 : Fin 2) * 512 + 1 * k.val = k.val; omega
  | ⟨1, _⟩ => show win2_2.index t (1 : Fin 2) * 512 + 1 * q.val = q.val; omega

/-- The second weight half's one block is the whole array. -/
theorem wK_apply (t : Fin cfg2.N) (k q : Fin 512) :
    (iblk2 (F := Ideal) V c 3 t : Vec Ideal S512x512 .f32) (ix2 k q)
      = (V c main_v19 : FVec Ideal Cert.Spec.SW .f32) (ix2 k q) := by
  obtain ⟨-, -, -, -, -, -, e0, e1, -⟩ := idx_facts t
  unfold iblk2
  rw [View.read_apply]
  show (V c main_v19 : FVec Ideal Cert.Spec.SW .f32) _ = (V c main_v19 : FVec Ideal Cert.Spec.SW .f32) _
  refine congrArg (V c main_v19 : FVec Ideal Cert.Spec.SW .f32) (funext fun a => Fin.ext ?_)
  match a with
  | ⟨0, _⟩ => show win2_3.index t (0 : Fin 2) * 512 + 1 * k.val = k.val; omega
  | ⟨1, _⟩ => show win2_3.index t (1 : Fin 2) * 512 + 1 * q.val = q.val; omega

/-- The first bias row's one block is the whole array. -/
theorem biasL_apply (t : Fin cfg2.N) (z : Fin 1) (q : Fin 512) :
    (iblk2 (F := Ideal) V c 4 t : Vec Ideal S1x512 .f32) (ix2 z q)
      = (V c main_v20 : FVec Ideal Cert.Spec.SR .f32) (ix2 z q) := by
  obtain ⟨-, -, -, -, -, -, -, -, e0, e1, -⟩ := idx_facts t
  unfold iblk2
  rw [View.read_apply]
  show (V c main_v20 : FVec Ideal Cert.Spec.SR .f32) _ = (V c main_v20 : FVec Ideal Cert.Spec.SR .f32) _
  refine congrArg (V c main_v20 : FVec Ideal Cert.Spec.SR .f32) (funext fun a => Fin.ext ?_)
  match a with
  | ⟨0, _⟩ => show win2_4.index t (0 : Fin 2) * 1 + 1 * z.val = z.val; omega
  | ⟨1, _⟩ => show win2_4.index t (1 : Fin 2) * 512 + 1 * q.val = q.val; omega

/-- The second bias row's one block is the whole array. -/
theorem biasB_apply (t : Fin cfg2.N) (z : Fin 1) (q : Fin 512) :
    (iblk2 (F := Ideal) V c 5 t : Vec Ideal S1x512 .f32) (ix2 z q)
      = (V c main_v21 : FVec Ideal Cert.Spec.SR .f32) (ix2 z q) := by
  obtain ⟨-, -, -, -, -, -, -, -, -, -, e0, e1, -⟩ := idx_facts t
  unfold iblk2
  rw [View.read_apply]
  show (V c main_v21 : FVec Ideal Cert.Spec.SR .f32) _ = (V c main_v21 : FVec Ideal Cert.Spec.SR .f32) _
  refine congrArg (V c main_v21 : FVec Ideal Cert.Spec.SR .f32) (funext fun a => Fin.ext ?_)
  match a with
  | ⟨0, _⟩ => show win2_5.index t (0 : Fin 2) * 1 + 1 * z.val = z.val; omega
  | ⟨1, _⟩ => show win2_5.index t (1 : Fin 2) * 512 + 1 * q.val = q.val; omega

/-- Entry (p, q) of the output's block at point t sits at row r of the array, r the block's first row plus p. -/
theorem out_emb (t : Fin cfg2.N) (p : Fin 1024) (q : Fin 512) (r : Fin 32768)
    (hr : r.val = win2_6.index t (0 : Fin 2) * 1024 + p.val) :
    ((cfg2.win 6).blk t).view.emb (ix2 p q) = (ix2 r q : Cert.Spec.SM.Idx) := by
  obtain ⟨-, -, -, -, -, -, -, -, -, -, -, -, e1, -⟩ := idx_facts t
  refine funext fun a => Fin.ext ?_
  match a with
  | ⟨0, _⟩ => show win2_6.index t (0 : Fin 2) * 1024 + 1 * p.val = r.val; omega
  | ⟨1, _⟩ => show win2_6.index t (1 : Fin 2) * 512 + 1 * q.val = q.val; omega

/-- What point t writes back is block t of the mixed rows of the arrays as the region finds them. -/
theorem flushed_eq (t : Fin cfg2.N) :
    (dat2 (F := Ideal) V c).flushed 6 t
      = ((cfg2.win 6).blk t).view.read (Elt Ideal)
          (Cert.Spec.mixRows (V c main_v8) (V c main_v15) (V c main_v17) (V c main_v19) (V c main_v20) (V c main_v21)) := by
  show (cfg2.win 6).cut (grid2.coords t) ((dat2 (F := Ideal) V c).after 6 t) = _
  rw [after2_6]
  unfold out2_6
  rw [View.canon_unit_zero hz]
  simp only [View.ld_unit_zero (S := S1024x512) hz, View.ld_unit_zero (S := S512x512) hz, View.ld_unit_zero (S := S1x512) hz]
  funext j
  obtain ⟨p, q, rfl⟩ : ∃ (p : Fin 1024) (q : Fin 512), j = ix2 p q := ⟨j 0, j 1, eq_ix2 j⟩
  obtain ⟨-, -, -, -, -, -, -, -, -, -, -, -, -, hle⟩ := idx_facts t
  obtain ⟨r, hr⟩ : ∃ r : Fin 32768, r.val = win2_6.index t (0 : Fin 2) * 1024 + p.val :=
    ⟨⟨win2_6.index t (0 : Fin 2) * 1024 + p.val, by have := p.isLt; omega⟩, rfl⟩
  show k2_pay1 (iblk2 V c 0 t) (iblk2 V c 1 t) (iblk2 V c 2 t) (iblk2 V c 3 t) (iblk2 V c 4 t) (iblk2 V c 5 t) (ix2 p q)
    = Cert.Spec.mixRows (V c main_v8) (V c main_v15) (V c main_v17) (V c main_v19) (V c main_v20) (V c main_v21)
        (((cfg2.win 6).blk t).view.emb (ix2 p q))
  rw [out_emb t p q r hr, Cert.Spec.mixRows_apply]
  refine (pay_apply (iblk2 V c 0 t) (iblk2 V c 1 t) (iblk2 V c 2 t) (iblk2 V c 3 t) (iblk2 V c 4 t) (iblk2 V c 5 t) p q).trans ?_
  unfold Cert.Spec.mixRowsAt
  refine congrArg₂ FloatOps.addf (congrArg Cert.Spec.leaky (congrArg₂ FloatOps.addf (congrArg₂ FloatOps.addf ?_ ?_) ?_)) ?_
  · exact Finset.sum_congr rfl fun k _ => by rw [rowsP_apply V c t p k r hr, wP_apply V c t k q]
  · exact Finset.sum_congr rfl fun k _ => by rw [rowsK_apply V c t p k r hr, wK_apply V c t k q]
  · exact biasL_apply V c t 0 q
  · exact biasB_apply V c t 0 q

end Blocks

/-- An index of the array is in point t's block iff each coordinate is in the block's range on its axis. -/
theorem mem_blk (t : Fin cfg2.N) (i : S32768x512.Idx) :
    i ∈ ((cfg2.win 6).blk t).view.set ↔ ∀ a : Fin 2, win2_6.index t a * S1024x512.size a ≤ (i a).val ∧ (i a).val < win2_6.index t a * S1024x512.size a + S1024x512.size a := by
  show i ∈ ((View.whole main_v22).slice (win2_6.rect t)).set ↔ _
  rw [View.set_slice_whole, Rect.mem_set_unit]
  exact Iff.rfl

/-- The 32 blocks cover the array: row r lies in the block of the point whose row-block index is r / 1024. -/
theorem cover (i : S32768x512.Idx) : ∃ t : Fin cfg2.N, (cfg2.win 6).flush t = true ∧ i ∈ ((cfg2.win 6).blk t).view.set := by
  have hi0 : (i 0).val < 32768 := (i 0).isLt
  have hi1 : (i 1).val < 512 := (i 1).isLt
  obtain ⟨t, ht⟩ := idx_onto ⟨(i 0).val / 1024, by omega⟩
  have q0 : win2_6.index t (0 : Fin 2) = (i 0).val / 1024 := congrFun ht 0
  have q1 : win2_6.index t (1 : Fin 2) = 0 := congrFun ht 1
  refine ⟨t, flush2_6 t, ?_⟩
  rw [mem_blk]
  intro a
  match a with
  | ⟨0, _⟩ => show win2_6.index t (0 : Fin 2) * 1024 ≤ (i 0).val ∧ (i 0).val < win2_6.index t (0 : Fin 2) * 1024 + 1024; omega
  | ⟨1, _⟩ => show win2_6.index t (1 : Fin 2) * 512 ≤ (i 1).val ∧ (i 1).val < win2_6.index t (1 : Fin 2) * 512 + 512; omega

end Mixer

/-- The mixing region's output array after the region, from any entry contents V. -/
theorem final2 (V : (c : Dev nD) → (b : Ref sig .tc) → Buf (Elt Ideal) ((c : Thread nD τ).loc b)) (c : Dev nD) :
    (dat2 (F := Ideal) V c).arrAt 6 cfg2.N
      = Cert.Spec.mixRows (V c main_v8) (V c main_v15) (V c main_v17) (V c main_v19) (V c main_v20) (V c main_v21) :=
  (dat2 (F := Ideal) V c).arrAt_eq_of_cover 6 _ (fun t _ => Mixer.flushed_eq V c t) Mixer.cover

end Cert.KernelIdeal.Hand

end
-- ==== Proof.LibLayout.lean ====
/-
  A row vector broadcast along the rows, read at an entry (a general lemma: nothing here depends on a program).

  A vector of B entries, shape-cast to one row [1, B] and broadcast to A rows [A, B], holds at (p, q) the vector's
  entry q.
-/
import Idealize.ShloMosaic.Lib.ValueIdx
import Idealize.ShloMosaic.Lib.Pipeline.Value

noncomputable section

namespace Cert.Lib.Layout

open Idealize.ShloMosaic Idealize.ShloMosaic.ValueIdx

/-- The one row [1, B] of a vector, at (0, q), is the vector at q. -/
theorem rowCast_apply {α : Type} {B : Nat} (v : (⟨1, ![B]⟩ : Shape).Idx → α)
    (h1 : (⟨1, ![B]⟩ : Shape).ShapeCasts ⟨2, ![1, B]⟩) (z : Fin 1) (q : Fin B) :
    shapeCast ⟨2, ![1, B]⟩ v h1 (ix2 z q) = v (ix1 q) := by
  refine (shapeCast_addUnit_apply (n := 1) ![B] v h1 (ix2 z q)).trans (congrArg v ?_)
  funext a
  match a with
  | ⟨0, _⟩ => rfl

/-- The row broadcast to A rows, at (p, q), is the vector at q. -/
theorem bcastRow_apply {α : Type} {A B : Nat} (v : (⟨1, ![B]⟩ : Shape).Idx → α)
    (h1 : (⟨1, ![B]⟩ : Shape).ShapeCasts ⟨2, ![1, B]⟩) (h2 : (⟨2, ![1, B]⟩ : Shape).Broadcasts ⟨2, ![A, B]⟩)
    (p : Fin A) (q : Fin B) :
    broadcastTo ⟨2, ![A, B]⟩ (shapeCast ⟨2, ![1, B]⟩ v h1) h2 (ix2 p q) = v (ix1 q) := by
  refine (broadcastTo_apply (shapeCast ⟨2, ![1, B]⟩ v h1) h2 (ix2 p q) (ix2 (0 : Fin 1) q) ?_).trans
    (rowCast_apply v h1 0 q)
  intro a
  match a with
  | ⟨0, _⟩ => simp
  | ⟨1, _⟩ =>
    show q.val = if B = 1 then 0 else q.val
    split
    · have := q.isLt; omega
    · rfl

end Cert.Lib.Layout

end
-- ==== Proof.KValue.lean ====
/-
  The idealized kernel program's run read as the mathematics: its two results are the two products with the mixed rows
  written back. The buffer contents are followed boundary by boundary: after each product region its output array is
  the product; the host operations between pick the rows, cut and transpose the layer's weight and recast the biases; after
  the mixing region its output array is the mixed rows; the last host operations write them back.
-/
import proofs.«108968_j78950088835529_1_alg».proof.Proof.Gen.KernelIdeal.Frame
import proofs.«108968_j78950088835529_1_alg».proof.Proof.Spec
import proofs.«108968_j78950088835529_1_alg».proof.Proof.LibMatmul
import proofs.«108968_j78950088835529_1_alg».proof.Proof.KMatmul
import proofs.«108968_j78950088835529_1_alg».proof.Proof.KMixer
import proofs.«108968_j78950088835529_1_alg».proof.Proof.KLaunch
import proofs.«108968_j78950088835529_1_alg».proof.Proof.LibLayout
import Idealize.ShloMosaic.Lib.StableHlo.Run
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat Cfg Window)

open Idealize.ShloMosaic.StableHlo

/-- The kernel program's records and facts for the shared host operations. -/
def KR : Cert.Spec.Recs where
  gath := gather_S65536x512_S32768x1_S32768x512_1_0_n_n_0_1_1512
  scat := scatter_S65536x512_S32768x1_S32768x512_1_0_0_1
  b0 := Facts₀.bcast_S_S32768
  b1 := Facts₀.bcast_S32768_S32768x1_0

/-! ## The host operations between the regions, from any contents X -/

section Host
variable (X : Valuation τ sig (Elt Ideal))

attribute [local irreducible] Host.gather Host.scatter

/-- The first row block picked. -/
theorem mid_v8 : after (hostOps2 (F := Ideal)) X (main_v8 : DevRef τ sig)
    = Cert.Spec.pick KR (X (main_v0 : DevRef τ sig)) (X (main_arg2 : DevRef τ sig)) := by
  after_results
  rfl

/-- The second row block picked. -/
theorem mid_v15 : after (hostOps2 (F := Ideal)) X (main_v15 : DevRef τ sig)
    = Cert.Spec.pick KR (X (main_v1 : DevRef τ sig)) (X (main_arg3 : DevRef τ sig)) := by
  after_results
  rfl

/-- The layer's first 512 input columns, transposed. -/
theorem mid_v17 : after (hostOps2 (F := Ideal)) X (main_v17 : DevRef τ sig)
    = transpose S512x512 [1, 0] (extractStridedSlice S512x512 ![0, 0] (X (main_arg7 : DevRef τ sig)) Facts₀.slices_S512x1024_S512x512_0_0) Facts₀.transposes_S512x512_S512x512_1_0 := by
  after_results

/-- The layer's last 512 input columns, transposed. -/
theorem mid_v19 : after (hostOps2 (F := Ideal)) X (main_v19 : DevRef τ sig)
    = transpose S512x512 [1, 0] (extractStridedSlice S512x512 ![0, 512] (X (main_arg7 : DevRef τ sig)) Facts₀.slices_S512x1024_S512x512_0_512) Facts₀.transposes_S512x512_S512x512_1_0 := by
  after_results

/-- The first bias as one row. -/
theorem mid_v20 : after (hostOps2 (F := Ideal)) X (main_v20 : DevRef τ sig)
    = shapeCast S1x512 (X (main_arg8 : DevRef τ sig)) Facts₀.shapeCasts_S512_S1x512 := by
  after_results
  rfl

/-- The second bias as one row. -/
theorem mid_v21 : after (hostOps2 (F := Ideal)) X (main_v21 : DevRef τ sig)
    = shapeCast S1x512 (X (main_arg9 : DevRef τ sig)) Facts₀.shapeCasts_S512_S1x512 := by
  after_results
  rfl

/-- These operations write none of the two products and none of the index vectors. -/
theorem mid_v0 : after (hostOps2 (F := Ideal)) X (main_v0 : DevRef τ sig) = X (main_v0 : DevRef τ sig) := by
  after_results
theorem mid_v1 : after (hostOps2 (F := Ideal)) X (main_v1 : DevRef τ sig) = X (main_v1 : DevRef τ sig) := by
  after_results
theorem mid_arg2 : after (hostOps2 (F := Ideal)) X (main_arg2 : DevRef τ sig) = X (main_arg2 : DevRef τ sig) := by
  after_results
theorem mid_arg3 : after (hostOps2 (F := Ideal)) X (main_arg3 : DevRef τ sig) = X (main_arg3 : DevRef τ sig) := by
  after_results

/-- The last host operations write the mixed rows back over the first product … -/
theorem last_v29 : after (hostOps3 (F := Ideal)) X (main_v29 : DevRef τ sig)
    = Cert.Spec.put KR (X (main_v0 : DevRef τ sig)) (X (main_arg2 : DevRef τ sig)) (X (main_v22 : DevRef τ sig)) := by
  after_results
  rfl

/-- … and over the second. -/
theorem last_v36 : after (hostOps3 (F := Ideal)) X (main_v36 : DevRef τ sig)
    = Cert.Spec.put KR (X (main_v1 : DevRef τ sig)) (X (main_arg3 : DevRef τ sig)) (X (main_v22 : DevRef τ sig)) := by
  after_results_simp
  rfl

end Host

/-! ## The layer's weight cut and transposed, the biases recast: read at an entry -/

section Layout
variable (lw : FVec Ideal S512x1024 .f32) (v : FVec Ideal S512 .f32)

/-- Entry (k, q) of the transposed first half is the weight at (q, k). -/
theorem half_lo (k q : Fin 512) :
    transpose S512x512 [1, 0] (extractStridedSlice S512x512 ![0, 0] lw Facts₀.slices_S512x1024_S512x512_0_0) Facts₀.transposes_S512x512_S512x512_1_0 (ix2 k q)
      = lw (ix2 q (Cert.Spec.lo k)) := by
  refine (transpose_apply [1, 0] _ Facts₀.transposes_S512x512_S512x512_1_0 (ix2 k q) (ix2 q k) ?_).trans ?_
  · intro b
    match b with
    | ⟨0, _⟩ => rfl
    | ⟨1, _⟩ => rfl
  · refine extractStridedSlice_apply ![0, 0] lw Facts₀.slices_S512x1024_S512x512_0_0 (ix2 q k) (ix2 q (Cert.Spec.lo k)) ?_
    intro a
    match a with
    | ⟨0, _⟩ => show q.val = 0 + q.val; omega
    | ⟨1, _⟩ => show k.val = 0 + k.val; omega

/-- Entry (k, q) of the transposed second half is the weight at (q, 512 + k). -/
theorem half_hi (k q : Fin 512) :
    transpose S512x512 [1, 0] (extractStridedSlice S512x512 ![0, 512] lw Facts₀.slices_S512x1024_S512x512_0_512) Facts₀.transposes_S512x512_S512x512_1_0 (ix2 k q)
      = lw (ix2 q (Cert.Spec.hi k)) := by
  refine (transpose_apply [1, 0] _ Facts₀.transposes_S512x512_S512x512_1_0 (ix2 k q) (ix2 q k) ?_).trans ?_
  · intro b
    match b with
    | ⟨0, _⟩ => rfl
    | ⟨1, _⟩ => rfl
  · refine extractStridedSlice_apply ![0, 512] lw Facts₀.slices_S512x1024_S512x512_0_512 (ix2 q k) (ix2 q (Cert.Spec.hi k)) ?_
    intro a
    match a with
    | ⟨0, _⟩ => show q.val = 0 + q.val; omega
    | ⟨1, _⟩ => show 512 + k.val = 512 + k.val; rfl

/-- A bias recast to one row, at (0, q), is the bias at q. -/
theorem row_at (q : Fin 512) : shapeCast S1x512 v Facts₀.shapeCasts_S512_S1x512 (ix2 (0 : Fin 1) q) = v (ix1 q) :=
  Cert.Lib.Layout.rowCast_apply v Facts₀.shapeCasts_S512_S1x512 0 q

end Layout

/-! ## The contents boundary by boundary -/

section Run
variable (m : (ℓ : Loc nD τ sig) → Buf (Elt Ideal) ℓ) (ρ : Dev nD → PrngReg) (c : Dev nD)

/-- After the first product region: its output array is the first product. -/
theorem at1_v0 : W1 m ρ c (Proc.devRef .tc main_v0)
    = Cert.Spec.mm (m ((c.tc : Thread nD τ).loc main_arg0)) (m ((c.tc : Thread nD τ).loc main_arg5)) :=
  (W1_arr m ρ c 2).trans (final0 (V0 m ρ) c)

/-- After the second product region: its output array is the second product, the first product still there. -/
theorem at2_v1 : W2 m ρ c (Proc.devRef .tc main_v1)
    = Cert.Spec.mm (m ((c.tc : Thread nD τ).loc main_arg1)) (m ((c.tc : Thread nD τ).loc main_arg6)) := by
  refine (W2_arr m ρ c 2).trans ((final1 (V1 m ρ) c).trans ?_)
  have e1 : V1 m ρ c main_arg1 = m ((c.tc : Thread nD τ).loc main_arg1) := W1_of_ne m ρ c main_arg1 (by decide)
  have e6 : V1 m ρ c main_arg6 = m ((c.tc : Thread nD τ).loc main_arg6) := W1_of_ne m ρ c main_arg6 (by decide)
  rw [e1, e6]

theorem at2_v0 : W2 m ρ c (Proc.devRef .tc main_v0)
    = Cert.Spec.mm (m ((c.tc : Thread nD τ).loc main_arg0)) (m ((c.tc : Thread nD τ).loc main_arg5)) :=
  (W2_of_ne m ρ c main_v0 (by decide)).trans (at1_v0 m ρ c)

/-- The arguments the host operations read are still as launched after the two product regions. -/
theorem at2_arg (b : Ref sig .tc) (h0 : ∀ w, Pipeline.arrRef spec0 w ≠ b) (h1 : ∀ w, Pipeline.arrRef spec1 w ≠ b) :
    W2 m ρ c (Proc.devRef .tc b) = m ((c.tc : Thread nD τ).loc b) :=
  (W2_of_ne m ρ c b h1).trans (W1_of_ne m ρ c b h0)

/-- After the mixing region: its output array is the mixed rows of the two picked row blocks. -/
theorem at4_v22 : W4 m ρ c (Proc.devRef .tc main_v22)
    = Cert.Spec.mixed KR (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg5)) (m ((c.tc : Thread nD τ).loc main_arg6))
        (m ((c.tc : Thread nD τ).loc main_arg7)) (m ((c.tc : Thread nD τ).loc main_arg8))
        (m ((c.tc : Thread nD τ).loc main_arg9)) := by
  refine (W4_arr m ρ c 6).trans ((final2 (V3 m ρ) c).trans ?_)
  have e8 : V3 m ρ c main_v8 = Cert.Spec.pick KR (Cert.Spec.mm (m ((c.tc : Thread nD τ).loc main_arg0)) (m ((c.tc : Thread nD τ).loc main_arg5))) (m ((c.tc : Thread nD τ).loc main_arg2)) := by
    refine (mid_v8 (W2 m ρ c)).trans ?_
    rw [at2_v0 m ρ c, at2_arg m ρ c main_arg2 (by decide) (by decide)]
  have e15 : V3 m ρ c main_v15 = Cert.Spec.pick KR (Cert.Spec.mm (m ((c.tc : Thread nD τ).loc main_arg1)) (m ((c.tc : Thread nD τ).loc main_arg6))) (m ((c.tc : Thread nD τ).loc main_arg3)) := by
    refine (mid_v15 (W2 m ρ c)).trans ?_
    rw [at2_v1 m ρ c, at2_arg m ρ c main_arg3 (by decide) (by decide)]
  have e17 : V3 m ρ c main_v17 = transpose S512x512 [1, 0] (extractStridedSlice S512x512 ![0, 0] (m ((c.tc : Thread nD τ).loc main_arg7)) Facts₀.slices_S512x1024_S512x512_0_0) Facts₀.transposes_S512x512_S512x512_1_0 := by
    refine (mid_v17 (W2 m ρ c)).trans ?_
    rw [at2_arg m ρ c main_arg7 (by decide) (by decide)]
  have e19 : V3 m ρ c main_v19 = transpose S512x512 [1, 0] (extractStridedSlice S512x512 ![0, 512] (m ((c.tc : Thread nD τ).loc main_arg7)) Facts₀.slices_S512x1024_S512x512_0_512) Facts₀.transposes_S512x512_S512x512_1_0 := by
    refine (mid_v19 (W2 m ρ c)).trans ?_
    rw [at2_arg m ρ c main_arg7 (by decide) (by decide)]
  have e20 : V3 m ρ c main_v20 = shapeCast S1x512 (m ((c.tc : Thread nD τ).loc main_arg8)) Facts₀.shapeCasts_S512_S1x512 := by
    refine (mid_v20 (W2 m ρ c)).trans ?_
    rw [at2_arg m ρ c main_arg8 (by decide) (by decide)]
  have e21 : V3 m ρ c main_v21 = shapeCast S1x512 (m ((c.tc : Thread nD τ).loc main_arg9)) Facts₀.shapeCasts_S512_S1x512 := by
    refine (mid_v21 (W2 m ρ c)).trans ?_
    rw [at2_arg m ρ c main_arg9 (by decide) (by decide)]
  rw [e8, e15, e17, e19, e20, e21]
  exact Cert.Spec.mixRows_eq_mix _ _ (m ((c.tc : Thread nD τ).loc main_arg7)) (m ((c.tc : Thread nD τ).loc main_arg8)) (m ((c.tc : Thread nD τ).loc main_arg9)) _ _ _ _
    (half_lo _) (half_hi _) (row_at _) (row_at _)

/-- At the end the first result is the first product with the mixed rows written back at the first index vector … -/
theorem at5_v29 : W5 m ρ c (Proc.devRef .tc main_v29) = Cert.Spec.outP KR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  refine (last_v29 (W4 m ρ c)).trans ?_
  have h0 : W4 m ρ c (Proc.devRef .tc main_v0) = Cert.Spec.mm (m ((c.tc : Thread nD τ).loc main_arg0)) (m ((c.tc : Thread nD τ).loc main_arg5)) :=
    (W4_of_ne m ρ c main_v0 (by decide)).trans ((mid_v0 (W2 m ρ c)).trans (at2_v0 m ρ c))
  have h2 : W4 m ρ c (Proc.devRef .tc main_arg2) = (m ((c.tc : Thread nD τ).loc main_arg2)) :=
    (W4_of_ne m ρ c main_arg2 (by decide)).trans ((mid_arg2 (W2 m ρ c)).trans (at2_arg m ρ c main_arg2 (by decide) (by decide)))
  rw [h0, h2, at4_v22 m ρ c]
  rfl

/-- … and the second result the second product with the same rows written back at the second index vector. -/
theorem at5_v36 : W5 m ρ c (Proc.devRef .tc main_v36) = Cert.Spec.outK KR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  refine (last_v36 (W4 m ρ c)).trans ?_
  have h1 : W4 m ρ c (Proc.devRef .tc main_v1) = Cert.Spec.mm (m ((c.tc : Thread nD τ).loc main_arg1)) (m ((c.tc : Thread nD τ).loc main_arg6)) :=
    (W4_of_ne m ρ c main_v1 (by decide)).trans ((mid_v1 (W2 m ρ c)).trans (at2_v1 m ρ c))
  have h3 : W4 m ρ c (Proc.devRef .tc main_arg3) = (m ((c.tc : Thread nD τ).loc main_arg3)) :=
    (W4_of_ne m ρ c main_arg3 (by decide)).trans ((mid_arg3 (W2 m ρ c)).trans (at2_arg m ρ c main_arg3 (by decide) (by decide)))
  rw [h1, h3, at4_v22 m ρ c]
  rfl

end Run

/-- Every weakly fair execution of the idealized kernel program terminates with its two results at the mathematics' two
    arrays of the arguments, the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v29) = Cert.Spec.outP KR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_v36) = Cert.Spec.outK KR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun r h c => by
      obtain ⟨h29, h36, hk⟩ := h c
      exact ⟨h29.trans (at5_v29 m ρ c), h36.trans (at5_v36 m ρ c), hk⟩)
    (Cert.KernelIdeal.Launch.run_results (F := Ideal) m ρ)

end Cert.KernelIdeal.Hand

end
-- ==== Proof.LibTypedRef.lean ====
/-
  Typed references: the transport between a value's type and its buffer's.
-/
import Idealize.ShloMosaic.Lib.StableHlo

namespace Cert.LibTypedRef

open Idealize.ShloMosaic Idealize.ShloMosaic.StableHlo

variable {sig : RefSig} {Val : EltTy → Type} {T : BufTy}

/-- A typed reference moves contents of its value's type `T` into its buffer's type and back along one equation of
    types; there and back is the identity.  (An operation of a module-local function, stated over typed references,
    writes its result through `toBuf` and the next one reads it through `ofBuf`: composed, the pair disappears, for any
    signature, value types and reference.) -/
theorem ofBuf_toBuf (x : TRef sig T) (v : T.Contents Val) : x.ofBuf (x.toBuf v) = v := by
  obtain ⟨r, rfl, _, _⟩ := x
  rfl

/-- And back and there. -/
theorem toBuf_ofBuf (x : TRef sig T) (v : x.ref.ty.Contents Val) : x.toBuf (x.ofBuf v) = v := by
  obtain ⟨r, rfl, _, _⟩ := x
  rfl

end Cert.LibTypedRef
-- ==== Proof.RValue.lean ====
/-
  The reference's run read as the mathematics: its two results are the two products with the mixed rows written back.
-/
import proofs.«108968_j78950088835529_1_alg».proof.Proof.Gen.ReferenceIdeal
import proofs.«108968_j78950088835529_1_alg».proof.Proof.Spec
import proofs.«108968_j78950088835529_1_alg».proof.Proof.LibMatmul
import proofs.«108968_j78950088835529_1_alg».proof.Proof.LibTypedRef
import Idealize.ShloMosaic.Lib.StableHlo.Run
import Idealize.ShloMosaic.Lib.Pipeline.Value
import Idealize.ShloMosaic.Lib.ValueIdx
import Idealize.ShloMosaic.PureOps.Ideal.Laws

noncomputable section

namespace Cert.ReferenceIdeal.Hand

open Cert.ReferenceIdeal Cert.ReferenceIdeal.Gen
open Idealize.ShloMosaic Idealize.ShloMosaic.TcCoe Idealize.ShloMosaic.ValueIdx Idealize.SL.Sem Idealize.ShloMosaic.StableHlo

/-- The reference's records and facts for the shared host operations. -/
def RR : Cert.Spec.Recs where
  gath := gather_S65536x512_S32768x1_S32768x512_1_0_n_n_0_1_1512
  scat := scatter_S65536x512_S32768x1_S32768x512_1_0_0_1
  b0 := Facts₀.bcast_S_S32768
  b1 := Facts₀.bcast_S32768_S32768x1_0

section Line

variable {F : FTy → Type} [FloatOps F]

/-! ## The reference as one straight line

@main's forty-eight operations with the rectifier's seven in the place of its call: the zero and its broadcast, the
comparison, the slope and its broadcast, the product, and the select that is the call's result. -/

/-- The fifty-five operations, in order. -/
abbrev ops : List (HloOp τ sig (Elt F)) :=
  [ binary main_arg0 main_arg5 main_v0 ((fun l r => Host.dotGeneral dot_S65536x512_S512x512_S65536x512_1_0_0_1_n_n none l r) : (⟨S65536x512, .f32⟩ : BufTy).Contents (Elt F) → (⟨S512x512, .f32⟩ : BufTy).Contents (Elt F) → (⟨S65536x512, .f32⟩ : BufTy).Contents (Elt F)),
    binary main_arg1 main_arg6 main_v1 ((fun l r => Host.dotGeneral dot_S65536x512_S512x512_S65536x512_1_0_0_1_n_n none l r) : (⟨S65536x512, .f32⟩ : BufTy).Contents (Elt F) → (⟨S512x512, .f32⟩ : BufTy).Contents (Elt F) → (⟨S65536x512, .f32⟩ : BufTy).Contents (Elt F)),
    nullary main_c (constantI S_ 32 0#32),
    unary main_c main_v2 (broadcastInDim S32768 ![] bcast_S_S32768 : (⟨S_, .i32⟩ : BufTy).Contents (Elt F) → (⟨S32768, .i32⟩ : BufTy).Contents (Elt F)),
    binary main_arg2 main_v2 main_v3 (cmpi .slt : (⟨S32768, .i32⟩ : BufTy).Contents (Elt F) → (⟨S32768, .i32⟩ : BufTy).Contents (Elt F) → (⟨S32768, .i1⟩ : BufTy).Contents (Elt F)),
    nullary main_c_0 (constantI S_ 32 65536#32),
    unary main_c_0 main_v4 (broadcastInDim S32768 ![] bcast_S_S32768 : (⟨S_, .i32⟩ : BufTy).Contents (Elt F) → (⟨S32768, .i32⟩ : BufTy).Contents (Elt F)),
    binary main_arg2 main_v4 main_v5 (addi : (⟨S32768, .i32⟩ : BufTy).Contents (Elt F) → (⟨S32768, .i32⟩ : BufTy).Contents (Elt F) → (⟨S32768, .i32⟩ : BufTy).Contents (Elt F)),
    ternary main_v3 main_v5 main_arg2 main_v6 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    unary main_v6 main_v7 (broadcastInDim S32768x1 ![0] bcast_S32768_S32768x1_0 : (⟨S32768, .i32⟩ : BufTy).Contents (Elt F) → (⟨S32768x1, .i32⟩ : BufTy).Contents (Elt F)),
    binary main_v0 main_v7 main_v8 ((fun x i => Host.gather gather_S65536x512_S32768x1_S32768x512_1_0_n_n_0_1_1512 x i) : (⟨S65536x512, .f32⟩ : BufTy).Contents (Elt F) → (⟨S32768x1, .i32⟩ : BufTy).Contents (Elt F) → (⟨S32768x512, .f32⟩ : BufTy).Contents (Elt F)),
    nullary main_c_1 (constantI S_ 32 0#32),
    unary main_c_1 main_v9 (broadcastInDim S32768 ![] bcast_S_S32768 : (⟨S_, .i32⟩ : BufTy).Contents (Elt F) → (⟨S32768, .i32⟩ : BufTy).Contents (Elt F)),
    binary main_arg3 main_v9 main_v10 (cmpi .slt : (⟨S32768, .i32⟩ : BufTy).Contents (Elt F) → (⟨S32768, .i32⟩ : BufTy).Contents (Elt F) → (⟨S32768, .i1⟩ : BufTy).Contents (Elt F)),
    nullary main_c_2 (constantI S_ 32 65536#32),
    unary main_c_2 main_v11 (broadcastInDim S32768 ![] bcast_S_S32768 : (⟨S_, .i32⟩ : BufTy).Contents (Elt F) → (⟨S32768, .i32⟩ : BufTy).Contents (Elt F)),
    binary main_arg3 main_v11 main_v12 (addi : (⟨S32768, .i32⟩ : BufTy).Contents (Elt F) → (⟨S32768, .i32⟩ : BufTy).Contents (Elt F) → (⟨S32768, .i32⟩ : BufTy).Contents (Elt F)),
    ternary main_v10 main_v12 main_arg3 main_v13 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    unary main_v13 main_v14 (broadcastInDim S32768x1 ![0] bcast_S32768_S32768x1_0 : (⟨S32768, .i32⟩ : BufTy).Contents (Elt F) → (⟨S32768x1, .i32⟩ : BufTy).Contents (Elt F)),
    binary main_v1 main_v14 main_v15 ((fun x i => Host.gather gather_S65536x512_S32768x1_S32768x512_1_0_n_n_0_1_1512 x i) : (⟨S65536x512, .f32⟩ : BufTy).Contents (Elt F) → (⟨S32768x1, .i32⟩ : BufTy).Contents (Elt F) → (⟨S32768x512, .f32⟩ : BufTy).Contents (Elt F)),
    binary main_v8 main_v15 main_v16 ((fun a b => concatenate S32768x1024 1 [⟨S32768x512, a⟩, ⟨S32768x512, b⟩] concatenates_S32768x512_S32768x512_S32768x1024_d1) : (⟨S32768x512, .f32⟩ : BufTy).Contents (Elt F) → (⟨S32768x512, .f32⟩ : BufTy).Contents (Elt F) → (⟨S32768x1024, .f32⟩ : BufTy).Contents (Elt F)),
    unary main_v16 main_v17 (Host.tanh : (⟨S32768x1024, .f32⟩ : BufTy).Contents (Elt F) → (⟨S32768x1024, .f32⟩ : BufTy).Contents (Elt F)),
    unary main_arg7 main_v18 ((transpose S1024x512 [1, 0] · transposes_S512x1024_S1024x512_1_0) : (⟨S512x1024, .f32⟩ : BufTy).Contents (Elt F) → (⟨S1024x512, .f32⟩ : BufTy).Contents (Elt F)),
    binary main_v17 main_v18 main_v19 ((fun l r => Host.dotGeneral dot_S32768x1024_S1024x512_S32768x512_1_0_0_1_n_n none l r) : (⟨S32768x1024, .f32⟩ : BufTy).Contents (Elt F) → (⟨S1024x512, .f32⟩ : BufTy).Contents (Elt F) → (⟨S32768x512, .f32⟩ : BufTy).Contents (Elt F)),
    unary main_arg8 main_v20 (broadcastInDim S1x512 ![1] bcast_S512_S1x512_1 : (⟨S512, .f32⟩ : BufTy).Contents (Elt F) → (⟨S1x512, .f32⟩ : BufTy).Contents (Elt F)),
    unary main_v20 main_v21 (broadcastInDim S32768x512 ![0, 1] bcast_S1x512_S32768x512_0_1 : (⟨S1x512, .f32⟩ : BufTy).Contents (Elt F) → (⟨S32768x512, .f32⟩ : BufTy).Contents (Elt F)),
    binary main_v19 main_v21 main_v22 (addf : (⟨S32768x512, .f32⟩ : BufTy).Contents (Elt F) → (⟨S32768x512, .f32⟩ : BufTy).Contents (Elt F) → (⟨S32768x512, .f32⟩ : BufTy).Contents (Elt F)),
    TRef.nullary main_call0.cst (constant S_ .f32 0x00000000#32),
    TRef.unary main_call0.cst main_call0.v0 (broadcastInDim S32768x512 ![] bcast_S_S32768x512),
    TRef.binary (.of main_v22) main_call0.v0 main_call0.v1 (cmpf .oge),
    TRef.nullary main_call0.cst_0 (constant S_ .f32 0x3C23D70A#32),
    TRef.unary main_call0.cst_0 main_call0.v2 (broadcastInDim S32768x512 ![] bcast_S_S32768x512),
    TRef.binary main_call0.v2 (.of main_v22) main_call0.v3 mulf,
    TRef.ternary main_call0.v1 (.of main_v22) main_call0.v3 main_call0.call0.v0 select,
    unary main_arg9 main_v24 (broadcastInDim S1x512 ![1] bcast_S512_S1x512_1 : (⟨S512, .f32⟩ : BufTy).Contents (Elt F) → (⟨S1x512, .f32⟩ : BufTy).Contents (Elt F)),
    unary main_v24 main_v25 (broadcastInDim S32768x512 ![0, 1] bcast_S1x512_S32768x512_0_1 : (⟨S1x512, .f32⟩ : BufTy).Contents (Elt F) → (⟨S32768x512, .f32⟩ : BufTy).Contents (Elt F)),
    binary main_v23 main_v25 main_v26 (addf : (⟨S32768x512, .f32⟩ : BufTy).Contents (Elt F) → (⟨S32768x512, .f32⟩ : BufTy).Contents (Elt F) → (⟨S32768x512, .f32⟩ : BufTy).Contents (Elt F)),
    nullary main_c_3 (constantI S_ 32 0#32),
    unary main_c_3 main_v27 (broadcastInDim S32768 ![] bcast_S_S32768 : (⟨S_, .i32⟩ : BufTy).Contents (Elt F) → (⟨S32768, .i32⟩ : BufTy).Contents (Elt F)),
    binary main_arg2 main_v27 main_v28 (cmpi .slt : (⟨S32768, .i32⟩ : BufTy).Contents (Elt F) → (⟨S32768, .i32⟩ : BufTy).Contents (Elt F) → (⟨S32768, .i1⟩ : BufTy).Contents (Elt F)),
    nullary main_c_4 (constantI S_ 32 65536#32),
    unary main_c_4 main_v29 (broadcastInDim S32768 ![] bcast_S_S32768 : (⟨S_, .i32⟩ : BufTy).Contents (Elt F) → (⟨S32768, .i32⟩ : BufTy).Contents (Elt F)),
    binary main_arg2 main_v29 main_v30 (addi : (⟨S32768, .i32⟩ : BufTy).Contents (Elt F) → (⟨S32768, .i32⟩ : BufTy).Contents (Elt F) → (⟨S32768, .i32⟩ : BufTy).Contents (Elt F)),
    ternary main_v28 main_v30 main_arg2 main_v31 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    unary main_v31 main_v32 (broadcastInDim S32768x1 ![0] bcast_S32768_S32768x1_0 : (⟨S32768, .i32⟩ : BufTy).Contents (Elt F) → (⟨S32768x1, .i32⟩ : BufTy).Contents (Elt F)),
    ternary main_v0 main_v32 main_v26 main_v33 ((fun x i u => Host.scatter scatter_S65536x512_S32768x1_S32768x512_1_0_0_1 (fun _ b => b) x i u) : (⟨S65536x512, .f32⟩ : BufTy).Contents (Elt F) → (⟨S32768x1, .i32⟩ : BufTy).Contents (Elt F) → (⟨S32768x512, .f32⟩ : BufTy).Contents (Elt F) → (⟨S65536x512, .f32⟩ : BufTy).Contents (Elt F)),
    nullary main_c_5 (constantI S_ 32 0#32),
    unary main_c_5 main_v34 (broadcastInDim S32768 ![] bcast_S_S32768 : (⟨S_, .i32⟩ : BufTy).Contents (Elt F) → (⟨S32768, .i32⟩ : BufTy).Contents (Elt F)),
    binary main_arg3 main_v34 main_v35 (cmpi .slt : (⟨S32768, .i32⟩ : BufTy).Contents (Elt F) → (⟨S32768, .i32⟩ : BufTy).Contents (Elt F) → (⟨S32768, .i1⟩ : BufTy).Contents (Elt F)),
    nullary main_c_6 (constantI S_ 32 65536#32),
    unary main_c_6 main_v36 (broadcastInDim S32768 ![] bcast_S_S32768 : (⟨S_, .i32⟩ : BufTy).Contents (Elt F) → (⟨S32768, .i32⟩ : BufTy).Contents (Elt F)),
    binary main_arg3 main_v36 main_v37 (addi : (⟨S32768, .i32⟩ : BufTy).Contents (Elt F) → (⟨S32768, .i32⟩ : BufTy).Contents (Elt F) → (⟨S32768, .i32⟩ : BufTy).Contents (Elt F)),
    ternary main_v35 main_v37 main_arg3 main_v38 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    unary main_v38 main_v39 (broadcastInDim S32768x1 ![0] bcast_S32768_S32768x1_0 : (⟨S32768, .i32⟩ : BufTy).Contents (Elt F) → (⟨S32768x1, .i32⟩ : BufTy).Contents (Elt F)),
    ternary main_v1 main_v39 main_v26 main_v40 ((fun x i u => Host.scatter scatter_S65536x512_S32768x1_S32768x512_1_0_0_1 (fun _ b => b) x i u) : (⟨S65536x512, .f32⟩ : BufTy).Contents (Elt F) → (⟨S32768x1, .i32⟩ : BufTy).Contents (Elt F) → (⟨S32768x512, .f32⟩ : BufTy).Contents (Elt F) → (⟨S65536x512, .f32⟩ : BufTy).Contents (Elt F)) ]

set_option maxRecDepth 4096 in
/-- @main is that line: the rectifier's and the select's bodies unfolded at their calls, the sequencing reassociated. -/
theorem main_eq (c : Dev nD) : main (F := F) c = seq ops := by
  simp only [main, fn_leaky_relu.body, fn_where.body, seq, bind_assoc, pure_bind]

/-- The signature scopes no buffer and no semaphore. -/
theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨binary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., binary_bufs_sub .., unary_bufs_sub .., unary_bufs_sub .., binary_bufs_sub ..,
    unary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., ternary_bufs_sub .., nullary_bufs_sub .., unary_bufs_sub ..,
    binary_bufs_sub .., nullary_bufs_sub .., unary_bufs_sub .., binary_bufs_sub .., ternary_bufs_sub .., unary_bufs_sub ..,
    ternary_bufs_sub ..⟩

/-! ## The two results as terms of the arguments -/

/-- The row numbers as one column: a negative index counted from the end. -/
def rowsT (a : IVec S32768 32) : IVec S32768x1 32 :=
  broadcastInDim S32768x1 ![0] bcast_S32768_S32768x1_0
    (select (cmpi .slt a (broadcastInDim S32768 ![] bcast_S_S32768 (constantI S_ 32 0#32)))
      (addi a (broadcastInDim S32768 ![] bcast_S_S32768 (constantI S_ 32 65536#32))) a)

/-- A node-feature matrix times its square weight. -/
def dotN (x : FVec F S65536x512 .f32) (w : FVec F S512x512 .f32) : FVec F S65536x512 .f32 :=
  Host.dotGeneral dot_S65536x512_S512x512_S65536x512_1_0_0_1_n_n none x w

/-- The rows of T the index vector names. -/
def pickT (T : FVec F S65536x512 .f32) (a : IVec S32768 32) : FVec F S32768x512 .f32 :=
  Host.gather gather_S65536x512_S32768x1_S32768x512_1_0_n_n_0_1_1512 T (rowsT a)

/-- The mixing layer before the rectifier: tanh of the two row blocks side by side, times the transposed weight, plus the bias. -/
def preT (P K : FVec F S32768x512 .f32) (lw : FVec F S512x1024 .f32) (lb : FVec F S512 .f32) : FVec F S32768x512 .f32 :=
  addf
    (Host.dotGeneral dot_S32768x1024_S1024x512_S32768x512_1_0_0_1_n_n none
      (Host.tanh (concatenate S32768x1024 1 [⟨S32768x512, P⟩, ⟨S32768x512, K⟩] concatenates_S32768x512_S32768x512_S32768x1024_d1))
      (transpose S1024x512 [1, 0] lw transposes_S512x1024_S1024x512_1_0))
    (broadcastInDim S32768x512 ![0, 1] bcast_S1x512_S32768x512_0_1 (broadcastInDim S1x512 ![1] bcast_S512_S1x512_1 lb))

/-- The leaky rectifier on a block of rows. -/
def leakyT (y : FVec F S32768x512 .f32) : FVec F S32768x512 .f32 :=
  select (cmpf .oge y (broadcastInDim S32768x512 ![] bcast_S_S32768x512 (constant S_ .f32 0x00000000#32))) y
    (mulf (broadcastInDim S32768x512 ![] bcast_S_S32768x512 (constant S_ .f32 0x3C23D70A#32)) y)

/-- The mixed rows. -/
def mixT (P K : FVec F S32768x512 .f32) (lw : FVec F S512x1024 .f32) (lb b : FVec F S512 .f32) : FVec F S32768x512 .f32 :=
  addf (leakyT (preT P K lw lb))
    (broadcastInDim S32768x512 ![0, 1] bcast_S1x512_S32768x512_0_1 (broadcastInDim S1x512 ![1] bcast_S512_S1x512_1 b))

/-- The mixed rows of the whole computation. -/
def mixedT (a0 a1 : FVec F S65536x512 .f32) (a2 a3 : IVec S32768 32) (a5 a6 : FVec F S512x512 .f32)
    (a7 : FVec F S512x1024 .f32) (a8 a9 : FVec F S512 .f32) : FVec F S32768x512 .f32 :=
  mixT (pickT (dotN a0 a5) a2) (pickT (dotN a1 a6) a3) a7 a8 a9

/-- The first result. -/
def resP (a0 a1 : FVec F S65536x512 .f32) (a2 a3 : IVec S32768 32) (a5 a6 : FVec F S512x512 .f32)
    (a7 : FVec F S512x1024 .f32) (a8 a9 : FVec F S512 .f32) : FVec F S65536x512 .f32 :=
  Host.scatter scatter_S65536x512_S32768x1_S32768x512_1_0_0_1 (fun _ b => b) (dotN a0 a5) (rowsT a2)
    (mixedT a0 a1 a2 a3 a5 a6 a7 a8 a9)

/-- The second result. -/
def resK (a0 a1 : FVec F S65536x512 .f32) (a2 a3 : IVec S32768 32) (a5 a6 : FVec F S512x512 .f32)
    (a7 : FVec F S512x1024 .f32) (a8 a9 : FVec F S512 .f32) : FVec F S65536x512 .f32 :=
  Host.scatter scatter_S65536x512_S32768x1_S32768x512_1_0_0_1 (fun _ b => b) (dotN a1 a6) (rowsT a3)
    (mixedT a0 a1 a2 a3 a5 a6 a7 a8 a9)

/-! ## What the line leaves in the result buffers and in the arguments -/

set_option maxHeartbeats 4000000 in
/-- The first result buffer ends at the first result's term of the arguments: each operation read at its own result buffer, a typed reference's way into its buffer and back being the identity. -/
theorem v33_eq (V : Valuation τ sig (Elt F)) :
    after ops V (main_v33 : DevRef τ sig)
      = resP (V (main_arg0 : DevRef τ sig)) (V (main_arg1 : DevRef τ sig)) (V (main_arg2 : DevRef τ sig))
          (V (main_arg3 : DevRef τ sig)) (V (main_arg5 : DevRef τ sig)) (V (main_arg6 : DevRef τ sig))
          (V (main_arg7 : DevRef τ sig)) (V (main_arg8 : DevRef τ sig)) (V (main_arg9 : DevRef τ sig)) := by
  after_results
  simp only [Cert.LibTypedRef.ofBuf_toBuf]
  simp only [TRef.ofBuf, TRef.toBuf, cast_eq]
  unfold resP mixedT mixT leakyT preT pickT dotN rowsT
  rfl

set_option maxHeartbeats 4000000 in
/-- The second result buffer likewise. -/
theorem v40_eq (V : Valuation τ sig (Elt F)) :
    after ops V (main_v40 : DevRef τ sig)
      = resK (V (main_arg0 : DevRef τ sig)) (V (main_arg1 : DevRef τ sig)) (V (main_arg2 : DevRef τ sig))
          (V (main_arg3 : DevRef τ sig)) (V (main_arg5 : DevRef τ sig)) (V (main_arg6 : DevRef τ sig))
          (V (main_arg7 : DevRef τ sig)) (V (main_arg8 : DevRef τ sig)) (V (main_arg9 : DevRef τ sig)) := by
  after_results
  simp only [Cert.LibTypedRef.ofBuf_toBuf]
  simp only [TRef.ofBuf, TRef.toBuf, cast_eq]
  unfold resK mixedT mixT leakyT preT pickT dotN rowsT
  rfl

/-- No operation writes an argument. -/
theorem arg0_eq (V : Valuation τ sig (Elt F)) : after ops V (main_arg0 : DevRef τ sig) = V (main_arg0 : DevRef τ sig) := by
  after_results_simp
theorem arg1_eq (V : Valuation τ sig (Elt F)) : after ops V (main_arg1 : DevRef τ sig) = V (main_arg1 : DevRef τ sig) := by
  after_results_simp
theorem arg2_eq (V : Valuation τ sig (Elt F)) : after ops V (main_arg2 : DevRef τ sig) = V (main_arg2 : DevRef τ sig) := by
  after_results_simp
theorem arg3_eq (V : Valuation τ sig (Elt F)) : after ops V (main_arg3 : DevRef τ sig) = V (main_arg3 : DevRef τ sig) := by
  after_results_simp
theorem arg4_eq (V : Valuation τ sig (Elt F)) : after ops V (main_arg4 : DevRef τ sig) = V (main_arg4 : DevRef τ sig) := by
  after_results_simp
theorem arg5_eq (V : Valuation τ sig (Elt F)) : after ops V (main_arg5 : DevRef τ sig) = V (main_arg5 : DevRef τ sig) := by
  after_results_simp
theorem arg6_eq (V : Valuation τ sig (Elt F)) : after ops V (main_arg6 : DevRef τ sig) = V (main_arg6 : DevRef τ sig) := by
  after_results_simp
theorem arg7_eq (V : Valuation τ sig (Elt F)) : after ops V (main_arg7 : DevRef τ sig) = V (main_arg7 : DevRef τ sig) := by
  after_results_simp
theorem arg8_eq (V : Valuation τ sig (Elt F)) : after ops V (main_arg8 : DevRef τ sig) = V (main_arg8 : DevRef τ sig) := by
  after_results_simp
theorem arg9_eq (V : Valuation τ sig (Elt F)) : after ops V (main_arg9 : DevRef τ sig) = V (main_arg9 : DevRef τ sig) := by
  after_results_simp

/-- Every weakly fair execution of the line terminates with each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Line

/-! ## The terms are the mathematics -/

section Math

/-- The host product of a node-feature matrix and its weight is the mathematics' product. -/
theorem dotN_eq (x : FVec Ideal S65536x512 .f32) (w : FVec Ideal S512x512 .f32) : dotN x w = Cert.Spec.mm x w := by
  funext i
  obtain ⟨a, c, rfl⟩ : ∃ (a : Fin 65536) (c : Fin 512), i = ix2 a c := ⟨i 0, i 1, eq_ix2 i⟩
  exact Cert.Lib.Matmul.dotGeneral_apply (A := 65536) (K := 512) (C := 512) none .single x w a c

theorem rowsT_eq (a : IVec S32768 32) : rowsT a = Cert.Spec.rows RR a := rfl

theorem pickT_eq (T : FVec Ideal S65536x512 .f32) (a : IVec S32768 32) : pickT T a = Cert.Spec.pick RR T a := rfl

/-- A bias laid along every row, read at (r, q), is the bias at q. -/
theorem bias_apply (b : FVec Ideal S512 .f32) (r : Fin 32768) (q : Fin 512) :
    broadcastInDim S32768x512 ![0, 1] bcast_S1x512_S32768x512_0_1 (broadcastInDim S1x512 ![1] bcast_S512_S1x512_1 b) (ix2 r q)
      = b (ix1 q) := by
  refine (broadcastInDim_apply ![0, 1] bcast_S1x512_S32768x512_0_1 _ (ix2 r q) (ix2 (0 : Fin 1) q) ?_).trans
    (broadcastInDim_apply ![1] bcast_S512_S1x512_1 b (ix2 (0 : Fin 1) q) (ix1 q) ?_)
  · intro a
    match a with
    | ⟨0, _⟩ => rfl
    | ⟨1, _⟩ => rfl
  · intro a
    match a with
    | ⟨0, _⟩ => rfl

/-- The two row blocks side by side, read in the left half. -/
theorem cat_lo (P K : FVec Ideal S32768x512 .f32) (r : Fin 32768) (k : Fin 512) :
    concatenate S32768x1024 1 [⟨S32768x512, P⟩, ⟨S32768x512, K⟩] concatenates_S32768x512_S32768x512_S32768x1024_d1
      (ix2 r (Cert.Spec.lo k)) = P (ix2 r k) := by
  refine concatenate_pair_apply_left (1 : Fin 2) P K _ (ix2 r (Cert.Spec.lo k)) rfl (ix2 r k) ?_
  intro b
  match b with
  | ⟨0, _⟩ => rfl
  | ⟨1, _⟩ => rfl

/-- The two row blocks side by side, read in the right half. -/
theorem cat_hi (P K : FVec Ideal S32768x512 .f32) (r : Fin 32768) (k : Fin 512) :
    concatenate S32768x1024 1 [⟨S32768x512, P⟩, ⟨S32768x512, K⟩] concatenates_S32768x512_S32768x512_S32768x1024_d1
      (ix2 r (Cert.Spec.hi k)) = K (ix2 r k) := by
  refine concatenate_pair_apply_right (1 : Fin 2) P K _ (ix2 r (Cert.Spec.hi k)) rfl rfl (ix2 r k) ?_ ?_
  · intro b hb
    match b with
    | ⟨0, _⟩ => rfl
    | ⟨1, _⟩ => exact absurd rfl hb
  · show k.val + 512 = 512 + k.val
    omega

/-- The transposed weight at (j, q) is the weight at (q, j). -/
theorem tr_apply (lw : FVec Ideal S512x1024 .f32) (j : Fin 1024) (q : Fin 512) :
    transpose S1024x512 [1, 0] lw transposes_S512x1024_S1024x512_1_0 (ix2 j q) = lw (ix2 q j) := by
  refine transpose_apply [1, 0] lw _ (ix2 j q) (ix2 q j) ?_
  intro b
  match b with
  | ⟨0, _⟩ => rfl
  | ⟨1, _⟩ => rfl

/-- The layer before the rectifier, at (r, q): the two half sums and the bias. -/
theorem preT_apply (P K : FVec Ideal S32768x512 .f32) (lw : FVec Ideal S512x1024 .f32) (lb : FVec Ideal S512 .f32)
    (r : Fin 32768) (q : Fin 512) :
    preT P K lw lb (ix2 r q)
      = FloatOps.addf
          (FloatOps.addf (∑ k : Fin 512, (Ideal.tanh (P (ix2 r k)) : EReal) * (lw (ix2 q (Cert.Spec.lo k)) : EReal) : EReal)
            (∑ k : Fin 512, (Ideal.tanh (K (ix2 r k)) : EReal) * (lw (ix2 q (Cert.Spec.hi k)) : EReal) : EReal))
          (lb (ix1 q)) := by
  refine congr (congrArg FloatOps.addf ?_) (bias_apply lb r q)
  refine (Cert.Lib.Matmul.dotGeneral_apply (A := 32768) (K := 1024) (C := 512) none .single _ _ r q).trans ?_
  refine (Cert.Spec.sum_split _).trans ?_
  refine congr (congrArg HAdd.hAdd (Finset.sum_congr rfl fun k _ => ?_)) (Finset.sum_congr rfl fun k _ => ?_)
  · exact congr (congrArg HMul.hMul (congrArg Ideal.tanh (cat_lo P K r k))) (tr_apply lw (Cert.Spec.lo k) q)
  · exact congr (congrArg HMul.hMul (congrArg Ideal.tanh (cat_hi P K r k))) (tr_apply lw (Cert.Spec.hi k) q)

/-- The rectifier on a block of rows is the rectifier at each entry. -/
theorem leakyT_apply (y : FVec Ideal S32768x512 .f32) (i : S32768x512.Idx) : leakyT y i = Cert.Spec.leaky (y i) := rfl

/-- The mixed rows are the mathematics' mixed rows. -/
theorem mixT_eq (P K : FVec Ideal S32768x512 .f32) (lw : FVec Ideal S512x1024 .f32) (lb b : FVec Ideal S512 .f32) :
    mixT P K lw lb b = Cert.Spec.mix P K lw lb b := by
  funext i
  obtain ⟨r, q, rfl⟩ : ∃ (r : Fin 32768) (q : Fin 512), i = ix2 r q := ⟨i 0, i 1, eq_ix2 i⟩
  show FloatOps.addf (leakyT (preT P K lw lb) (ix2 r q)) _ = Cert.Spec.mixAt P K lw lb b r q
  unfold Cert.Spec.mixAt
  exact congr (congrArg FloatOps.addf ((leakyT_apply _ _).trans (congrArg Cert.Spec.leaky (preT_apply P K lw lb r q))))
    (bias_apply b r q)

theorem mixedT_eq (a0 a1 : FVec Ideal S65536x512 .f32) (a2 a3 : IVec S32768 32) (a5 a6 : FVec Ideal S512x512 .f32)
    (a7 : FVec Ideal S512x1024 .f32) (a8 a9 : FVec Ideal S512 .f32) :
    mixedT a0 a1 a2 a3 a5 a6 a7 a8 a9 = Cert.Spec.mixed RR a0 a1 a2 a3 a5 a6 a7 a8 a9 := by
  unfold mixedT Cert.Spec.mixed
  rw [dotN_eq, dotN_eq, pickT_eq, pickT_eq, mixT_eq]

theorem resP_eq (a0 a1 : FVec Ideal S65536x512 .f32) (a2 a3 : IVec S32768 32) (a5 a6 : FVec Ideal S512x512 .f32)
    (a7 : FVec Ideal S512x1024 .f32) (a8 a9 : FVec Ideal S512 .f32) :
    resP a0 a1 a2 a3 a5 a6 a7 a8 a9 = Cert.Spec.outP RR a0 a1 a2 a3 a5 a6 a7 a8 a9 := by
  unfold resP Cert.Spec.outP Cert.Spec.put
  rw [dotN_eq, mixedT_eq, rowsT_eq]
  rfl

theorem resK_eq (a0 a1 : FVec Ideal S65536x512 .f32) (a2 a3 : IVec S32768 32) (a5 a6 : FVec Ideal S512x512 .f32)
    (a7 : FVec Ideal S512x1024 .f32) (a8 a9 : FVec Ideal S512 .f32) :
    resK a0 a1 a2 a3 a5 a6 a7 a8 a9 = Cert.Spec.outK RR a0 a1 a2 a3 a5 a6 a7 a8 a9 := by
  unfold resK Cert.Spec.outK Cert.Spec.put
  rw [dotN_eq, mixedT_eq, rowsT_eq]
  rfl

end Math

/-- Every weakly fair execution of the reference terminates with its two results at the mathematics' two arrays of the
    arguments, the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v33) = Cert.Spec.outP RR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_v40) = Cert.Spec.outK RR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run (defs (F := Ideal)) _ _).mono (fun r h c =>
      ⟨(h c main_v33).trans ((v33_eq (launchContents m c)).trans (resP_eq _ _ _ _ _ _ _ _ _)),
        (h c main_v40).trans ((v40_eq (launchContents m c)).trans (resK_eq _ _ _ _ _ _ _ _ _)),
        (h c main_arg0).trans (arg0_eq (launchContents m c)), (h c main_arg1).trans (arg1_eq (launchContents m c)),
        (h c main_arg2).trans (arg2_eq (launchContents m c)), (h c main_arg3).trans (arg3_eq (launchContents m c)),
        (h c main_arg4).trans (arg4_eq (launchContents m c)), (h c main_arg5).trans (arg5_eq (launchContents m c)),
        (h c main_arg6).trans (arg6_eq (launchContents m c)), (h c main_arg7).trans (arg7_eq (launchContents m c)),
        (h c main_arg8).trans (arg8_eq (launchContents m c)), (h c main_arg9).trans (arg9_eq (launchContents m c))⟩)
    (run_main m ρ)

end Cert.ReferenceIdeal.Hand

end
-- ==== Proof.lean ====
/-
  Two feature matrices are multiplied by their weights, 32768 rows of each product are picked by an index vector, mixed
  through tanh, a linear layer, a bias, the leaky rectifier and a second bias, and written back over the picked rows of both
  products. The kernel program does the two products and the mixing on the matrix unit, block of rows by block of rows,
  the linear layer as two products with the two halves of its weight; the reference does them as whole-array host
  operations over the concatenated rows. Over the extended reals the two agree: a block of rows of a product depends on
  the same rows of the left operand only, a narrowing of the operands is the identity, and a sum over the 1024
  concatenated columns is the sum over its first 512 plus the sum over its last 512 (addition of extended reals is
  commutative and associative; no finiteness is used). The picking and the writing back are the same host operations
  on both sides and are never opened.
-/
import proofs.«108968_j78950088835529_1_alg».proof.Defs
import proofs.«108968_j78950088835529_1_alg».proof.Proof.Gen.Kernel
import proofs.«108968_j78950088835529_1_alg».proof.Proof.Gen.Kernel.Frame
import proofs.«108968_j78950088835529_1_alg».proof.Proof.Gen.KernelIdeal
import proofs.«108968_j78950088835529_1_alg».proof.Proof.Gen.KernelIdeal.Frame
import proofs.«108968_j78950088835529_1_alg».proof.Proof.Gen.ReferenceIdeal
import proofs.«108968_j78950088835529_1_alg».proof.Proof.Gen.Pre_finite_inputs
import proofs.«108968_j78950088835529_1_alg».proof.Proof.KValue
import proofs.«108968_j78950088835529_1_alg».proof.Proof.RValue
import Idealize.ShloMosaic.Adequacy
import Idealize.ShloMosaic.Init

noncomputable section

namespace Cert.Proof

open Idealize.ShloMosaic Idealize.ShloMosaic.TcCoe Idealize.SL.Sem

/-- The two programs state the same shape records and facts for the host operations they share. -/
theorem recs_eq : Cert.ReferenceIdeal.Hand.RR = Cert.KernelIdeal.Hand.KR := rfl

theorem frame_kernel : Cert.frame_Kernel := fun m ρ _ => Cert.Kernel.Gen.frame m ρ

theorem frame_kernelIdeal : Cert.frame_KernelIdeal := fun m ρ _ => Cert.KernelIdeal.Gen.frame m ρ

/-- The reference's run with the results dropped. -/
theorem frame_referenceIdeal : Cert.frame_ReferenceIdeal := fun m ρ _ =>
  (θ_run Cert.ReferenceIdeal.defs _ _).mono (fun _ h c => (h c).2.2) (Cert.ReferenceIdeal.Hand.run m ρ)

/-- Both runs end with their results at the same two arrays of arguments that agree. -/
theorem algebraic : Cert.algebraic_KernelIdeal_ReferenceIdeal := by
  intro m ρ m' ρ' _ hagree
  refine ⟨_, _, Cert.KernelIdeal.Hand.run m ρ, ?_⟩
  refine (θ_run Cert.ReferenceIdeal.defs _ _).mono (fun _ h c => ?_) (Cert.ReferenceIdeal.Hand.run m' ρ')
  obtain ⟨h33, h40, hk⟩ := h c
  obtain ⟨e0, e1, e2, e3, e4, e5, e6, e7, e8, e9⟩ := hagree c
  refine ⟨h33.trans ?_, h40.trans ?_, hk⟩
  · rw [e0, e1, e2, e3, e5, e6, e7, e8, e9, recs_eq]
  · rw [e0, e1, e2, e3, e5, e6, e7, e8, e9, recs_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
